-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S256x1024x16 : Shape := ⟨3, ![256, 1024, 16]⟩
abbrev S512x16 : Shape := ⟨2, ![512, 16]⟩
abbrev S4608x4096 : Shape := ⟨2, ![4608, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S256x1024x16 : S_.BroadcastsInDim S256x1024x16 (![] : Fin 0 → Fin S256x1024x16.rank)
  reducesTo_S256x1024x16_S_d0_1_2 : S256x1024x16.ReducesTo [0, 1, 2] S_
  bcast_S_S512x16 : S_.BroadcastsInDim S512x16 (![] : Fin 0 → Fin S512x16.rank)
  reducesTo_S512x16_S_d0_1 : S512x16.ReducesTo [0, 1] S_
  bcast_S_S4608x4096 : S_.BroadcastsInDim S4608x4096 (![] : Fin 0 → Fin S4608x4096.rank)
  reducesTo_S4608x4096_S_d0_1 : S4608x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4608x4096 .f32) (main_arg5 : FVec F S4096 .f32) (main_arg6 : FVec F S4096x1024 .f32) (main_arg7 : FVec F S1024 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S4608x4096 .f32 := Host.absf main_arg4
  let main_cst_6 : FVec F S_ .f32 := constant S_ .f32 0x7F800000#32
  let main_v20 : FVec F S4608x4096 .f32 := broadcastInDim S4608x4096 ![] bcast_S_S4608x4096 main_cst_6
  let main_v21 : IVec S4608x4096 1 := cmpf .olt main_v19 main_v20
  let main_c_7 : IVec S_ 1 := constantI S_ 1 1#1
  let main_v22 : IVec S_ 1 := (fun x v => Host.reduce IntOp.andi x v reducesTo_S4608x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S256x1024 .f32) (main_arg1 : FVec F S256x1024x16 .f32) (main_arg2 : FVec F S256x1024x16 .f32) (main_arg3 : FVec F S512x16 .f32) (main_arg4 : FVec F S4608x4096 .f32) (main_arg5 : FVec F S4096 .f32) (main_arg6 : FVec F S4096x1024 .f32) (main_arg7 : FVec F S1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x1024x16 .f32 := Host.absf main_arg1
  let main_cst_0 : FVec F S_ .f32 := constant S_ .f32 0x7F800000#32
  let main_v5 : FVec F S256x1024x16 .f32 := broadcastInDim S256x1024x16 ![] bcast_S_S256x1024x16 main_cst_0
  let main_v6 : IVec S256x1024x16 1 := cmpf .olt main_v4 main_v5
  let main_c_1 : IVec S_ 1 := constantI S_ 1 1#1
  let main_v7 : IVec S_ 1 := (fun x v => Host.reduce IntOp.andi x v reducesTo_S256x1024x16_S_d0_1_2 h_S_) main_v6 main_c_1
  let main_v8 : IVec S_ 1 := andi main_v3 main_v7
  let main_v9 : FVec F S256x1024x16 .f32 := Host.absf main_arg2
  let main_cst_2 : FVec F S_ .f32 := constant S_ .f32 0x7F800000#32
  let main_v10 : FVec F S256x1024x16 .f32 := broadcastInDim S256x1024x16 ![] bcast_S_S256x1024x16 main_cst_2
  let main_v11 : IVec S256x1024x16 1 := cmpf .olt main_v9 main_v10
  let main_c_3 : IVec S_ 1 := constantI S_ 1 1#1
  let main_v12 : IVec S_ 1 := (fun x v => Host.reduce IntOp.andi x v reducesTo_S256x1024x16_S_d0_1_2 h_S_) main_v11 main_c_3
  let main_v13 : IVec S_ 1 := andi main_v8 main_v12
  let main_v14 : FVec F S512x16 .f32 := Host.absf main_arg3
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg4 main_arg5 main_arg6 main_arg7 main_v13 main_v16
-- ==== Kernel.lean ====
abbrev S256x1024 : Shape := ⟨2, ![256, 1024]⟩
abbrev S256x1024x16 : Shape := ⟨3, ![256, 1024, 16]⟩
abbrev S512x16 : Shape := ⟨2, ![512, 16]⟩
abbrev S4608x4096 : Shape := ⟨2, ![4608, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S256x1x1024 : Shape := ⟨3, ![256, 1, 1024]⟩
abbrev S256x16x1024 : Shape := ⟨3, ![256, 16, 1024]⟩
abbrev S16x512 : Shape := ⟨2, ![16, 512]⟩
abbrev S1x16x512 : Shape := ⟨3, ![1, 16, 512]⟩
abbrev S256x16x512 : Shape := ⟨3, ![256, 16, 512]⟩
abbrev S256x16x4608 : Shape := ⟨3, ![256, 16, 4608]⟩
abbrev S4096x4608 : Shape := ⟨2, ![4096, 4608]⟩
abbrev S1x4096 : Shape := ⟨2, ![1, 4096]⟩
abbrev S1x1024 : Shape := ⟨2, ![1, 1024]⟩
abbrev S512x4608 : Shape := ⟨2, ![512, 4608]⟩
abbrev S4608x512 : Shape := ⟨2, ![4608, 512]⟩
abbrev S1x512 : Shape := ⟨2, ![1, 512]⟩
abbrev S512x1024 : Shape := ⟨2, ![512, 1024]⟩
abbrev S512x512 : Shape := ⟨2, ![512, 512]⟩

abbrev nBuf : Space → Nat
  | .hbm => 41
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S256x1024x16, .f32⟩
  | .hbm, ⟨2, _⟩ => ⟨S256x1024x16, .f32⟩
  | .hbm, ⟨3, _⟩ => ⟨S512x16, .f32⟩
  | .hbm, ⟨4, _⟩ => ⟨S4608x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .bf16⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .bf16⟩
  | .hbm, ⟨18, _⟩ => ⟨S256x1024x16, .bf16⟩
  | .hbm, ⟨19, _⟩ => ⟨S256x1024x16, .bf16⟩
  | .hbm, ⟨20, _⟩ => ⟨S512x16, .bf16⟩
  | .hbm, ⟨21, _⟩ => ⟨S256x1x1024, .bf16⟩
  | .hbm, ⟨22, _⟩ => ⟨S256x16x1024, .bf16⟩
  | .hbm, ⟨23, _⟩ => ⟨S256x1x1024, .bf16⟩
  | .hbm, ⟨24, _⟩ => ⟨S256x16x1024, .bf16⟩
  | .hbm, ⟨25, _⟩ => ⟨S256x16x1024, .bf16⟩
  | .hbm, ⟨26, _⟩ => ⟨S256x16x1024, .bf16⟩
  | .hbm, ⟨27, _⟩ => ⟨S16x512, .bf16⟩
  | .hbm, ⟨28, _⟩ => ⟨S1x16x512, .bf16⟩
  | .hbm, ⟨29, _⟩ => ⟨S256x16x512, .bf16⟩
  | .hbm, ⟨30, _⟩ => ⟨S256x16x4608, .bf16⟩
  | .hbm, ⟨31, _⟩ => ⟨S4096x4608, .bf16⟩
  | .hbm, ⟨32, _⟩ => ⟨S4608x4096, .bf16⟩
  | .hbm, ⟨33, _⟩ => ⟨S4096x1024, .bf16⟩
  | .hbm, ⟨34, _⟩ => ⟨S1x4096, .f32⟩
  | .hbm, ⟨35, _⟩ => ⟨S1x1024, .f32⟩
  | .hbm, ⟨36, _⟩ => ⟨S4096x1024, .f32⟩
  | .hbm, ⟨37, _⟩ => ⟨S256x16x1024, .f32⟩
  | .hbm, ⟨38, _⟩ => ⟨S_, .f32⟩
  | .hbm, ⟨39, _⟩ => ⟨S256x1024, .f32⟩
  | .hbm, ⟨40, _⟩ => ⟨S256x1024, .f32⟩
  | .local _ .vmem, ⟨0, _⟩ => ⟨S512x4608, .bf16⟩
  | .local _ .vmem, ⟨1, _⟩ => ⟨S512x4608, .bf16⟩
  | .local _ .vmem, ⟨2, _⟩ => ⟨S4608x512, .bf16⟩
  | .local _ .vmem, ⟨3, _⟩ => ⟨S4608x512, .bf16⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S256x1024 : S_.BroadcastsInDim S256x1024 (![] : Fin 0 → Fin S256x1024.rank)
  bitsLt_bf16_f32 : FTy.bits .bf16 < FTy.bits .f32
  bcast_S256x1024_S256x1x1024_0_2 : S256x1024.BroadcastsInDim S256x1x1024 (![0, 2] : Fin 2 → Fin S256x1x1024.rank)
  bcast_S256x1x1024_S256x16x1024_0_1_2 : S256x1x1024.BroadcastsInDim S256x16x1024 (![0, 1, 2] : Fin 3 → Fin S256x16x1024.rank)
  transposes_S256x1024x16_S256x16x1024_0_2_1 : S256x1024x16.Transposes [0, 2, 1] S256x16x1024
  transposes_S512x16_S16x512_1_0 : S512x16.Transposes [1, 0] S16x512
  bcast_S16x512_S1x16x512_1_2 : S16x512.BroadcastsInDim S1x16x512 (![1, 2] : Fin 2 → Fin S1x16x512.rank)
  bcast_S1x16x512_S256x16x512_0_1_2 : S1x16x512.BroadcastsInDim S256x16x512 (![0, 1, 2] : Fin 3 → Fin S256x16x512.rank)
  concatenates_S256x16x1024_S256x16x1024_S256x16x1024_S256x16x1024_S256x16x512_S256x16x4608_d2 : Shape.Concatenates [S256x16x1024, S256x16x1024, S256x16x1024, S256x16x1024, S256x16x512] S256x16x4608 2
  shapeCasts_S256x16x4608_S4096x4608 : S256x16x4608.ShapeCasts S4096x4608
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x4608_S512x4608_0_0 : ∀ a, (![0, 0] : Fin 2 → Nat) a + S512x4608.size a ≤ S512x4608.size a
  h_S512x4608 : 0 < S512x4608.numel
  shapeCasts_S512x4608_S512x4608 : S512x4608.ShapeCasts S512x4608
  inb_S4608x512_S4608x512_0_0 : ∀ a, (![0, 0] : Fin 2 → Nat) a + S4608x512.size a ≤ S4608x512.size a
  h_S4608x512 : 0 < S4608x512.numel
  shapeCasts_S4608x512_S4608x512 : S4608x512.ShapeCasts S4608x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S256x16x1024 : S4096x1024.ShapeCasts S256x16x1024
  reducesTo_S256x16x1024_S256x1024_d1 : S256x16x1024.ReducesTo [1] S256x1024
  h_S_ : 0 < S_.numel
  dot_S512x4608_S4608x512_S512x512_1_0_0_1_n_n_wf : DotDims.WF S512x4608 S4608x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4608.size a ≤ S4096x4608.size a
  hwx0_0 : ∀ i : grid0.Coords, EltTy.bits .bf16 = 32 ∨ (Rect.block (s := S4096x4608) S512x4608.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4608x512.size a ≤ S4608x4096.size a
  hwx0_1 : ∀ i : grid0.Coords, EltTy.bits .bf16 = 32 ∨ (Rect.block (s := S4608x4096) S4608x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)

variable [Facts₀]

def dot_S512x4608_S4608x512_S512x512_1_0_0_1_n_n : DotDims S512x4608 S4608x512 S512x512 where
  lhsContracting := [1]
  rhsContracting := [0]
  lhsNonContracting := [0]
  rhsNonContracting := [1]
  lhsBatch := []
  rhsBatch := []
  wf := dot_S512x4608_S4608x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v21) S512x4608.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4608x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S256x1024 : Shape := ⟨2, ![256, 1024]⟩
abbrev S256x1024x16 : Shape := ⟨3, ![256, 1024, 16]⟩
abbrev S512x16 : Shape := ⟨2, ![512, 16]⟩
abbrev S4608x4096 : Shape := ⟨2, ![4608, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S256x1x1024 : Shape := ⟨3, ![256, 1, 1024]⟩
abbrev S256x16x1024 : Shape := ⟨3, ![256, 16, 1024]⟩
abbrev S16x512 : Shape := ⟨2, ![16, 512]⟩
abbrev S1x16x512 : Shape := ⟨3, ![1, 16, 512]⟩
abbrev S256x16x512 : Shape := ⟨3, ![256, 16, 512]⟩
abbrev S256x16x4608 : Shape := ⟨3, ![256, 16, 4608]⟩
abbrev S256x16x4096 : Shape := ⟨3, ![256, 16, 4096]⟩
abbrev S1x1x4096 : Shape := ⟨3, ![1, 1, 4096]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024x16, .f32⟩
  | .hbm, ⟨2, _⟩ => ⟨S256x1024x16, .f32⟩
  | .hbm, ⟨3, _⟩ => ⟨S512x16, .f32⟩
  | .hbm, ⟨4, _⟩ => ⟨S4608x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1x1024, .f32⟩
  | .hbm, ⟨19, _⟩ => ⟨S256x16x1024, .f32⟩
  | .hbm, ⟨20, _⟩ => ⟨S256x1x1024, .f32⟩
  | .hbm, ⟨21, _⟩ => ⟨S256x16x1024, .f32⟩
  | .hbm, ⟨22, _⟩ => ⟨S256x16x1024, .f32⟩
  | .hbm, ⟨23, _⟩ => ⟨S256x16x1024, .f32⟩
  | .hbm, ⟨24, _⟩ => ⟨S16x512, .f32⟩
  | .hbm, ⟨25, _⟩ => ⟨S1x16x512, .f32⟩
  | .hbm, ⟨26, _⟩ => ⟨S256x16x512, .f32⟩
  | .hbm, ⟨27, _⟩ => ⟨S256x16x4608, .f32⟩
  | .hbm, ⟨28, _⟩ => ⟨S256x16x4096, .f32⟩
  | .hbm, ⟨29, _⟩ => ⟨S1x1x4096, .f32⟩
  | .hbm, ⟨30, _⟩ => ⟨S256x16x4096, .f32⟩
  | .hbm, ⟨31, _⟩ => ⟨S256x16x4096, .f32⟩
  | .hbm, ⟨32, _⟩ => ⟨S_, .f32⟩
  | .hbm, ⟨33, _⟩ => ⟨S256x16x4096, .f32⟩
  | .hbm, ⟨34, _⟩ => ⟨S256x16x4096, .f32⟩
  | .hbm, ⟨35, _⟩ => ⟨S256x16x1024, .f32⟩
  | .hbm, ⟨36, _⟩ => ⟨S1x1x1024, .f32⟩
  | .hbm, ⟨37, _⟩ => ⟨S256x16x1024, .f32⟩
  | .hbm, ⟨38, _⟩ => ⟨S256x16x1024, .f32⟩
  | .hbm, ⟨39, _⟩ => ⟨S_, .f32⟩
  | .hbm, ⟨40, _⟩ => ⟨S256x1024, .f32⟩
  | .hbm, ⟨41, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S256x1024 : S_.BroadcastsInDim S256x1024 (![] : Fin 0 → Fin S256x1024.rank)
  bcast_S256x1024_S256x1x1024_0_2 : S256x1024.BroadcastsInDim S256x1x1024 (![0, 2] : Fin 2 → Fin S256x1x1024.rank)
  bcast_S256x1x1024_S256x16x1024_0_1_2 : S256x1x1024.BroadcastsInDim S256x16x1024 (![0, 1, 2] : Fin 3 → Fin S256x16x1024.rank)
  transposes_S256x1024x16_S256x16x1024_0_2_1 : S256x1024x16.Transposes [0, 2, 1] S256x16x1024
  transposes_S512x16_S16x512_1_0 : S512x16.Transposes [1, 0] S16x512
  bcast_S16x512_S1x16x512_1_2 : S16x512.BroadcastsInDim S1x16x512 (![1, 2] : Fin 2 → Fin S1x16x512.rank)
  bcast_S1x16x512_S256x16x512_0_1_2 : S1x16x512.BroadcastsInDim S256x16x512 (![0, 1, 2] : Fin 3 → Fin S256x16x512.rank)
  concatenates_S256x16x1024_S256x16x1024_S256x16x1024_S256x16x1024_S256x16x512_S256x16x4608_d2 : Shape.Concatenates [S256x16x1024, S256x16x1024, S256x16x1024, S256x16x1024, S256x16x512] S256x16x4608 2
  bcast_S4096_S1x1x4096_2 : S4096.BroadcastsInDim S1x1x4096 (![2] : Fin 1 → Fin S1x1x4096.rank)
  bcast_S1x1x4096_S256x16x4096_0_1_2 : S1x1x4096.BroadcastsInDim S256x16x4096 (![0, 1, 2] : Fin 3 → Fin S256x16x4096.rank)
  bcast_S_S256x16x4096 : S_.BroadcastsInDim S256x16x4096 (![] : Fin 0 → Fin S256x16x4096.rank)
  bcast_S1024_S1x1x1024_2 : S1024.BroadcastsInDim S1x1x1024 (![2] : Fin 1 → Fin S1x1x1024.rank)
  bcast_S1x1x1024_S256x16x1024_0_1_2 : S1x1x1024.BroadcastsInDim S256x16x1024 (![0, 1, 2] : Fin 3 → Fin S256x16x1024.rank)
  reducesTo_S256x16x1024_S256x1024_d1 : S256x16x1024.ReducesTo [1] S256x1024
  h_S_ : 0 < S_.numel
  dot_S256x16x4608_S4608x4096_S256x16x4096_2_0_01_1_n_n_wf : DotDims.WF S256x16x4608 S4608x4096 S256x16x4096 [2] [0] [0, 1] [1] [] []
  dot_S256x16x4096_S4096x1024_S256x16x1024_2_0_01_1_n_n_wf : DotDims.WF S256x16x4096 S4096x1024 S256x16x1024 [2] [0] [0, 1] [1] [] []

variable [Facts₀]

def dot_S256x16x4608_S4608x4096_S256x16x4096_2_0_01_1_n_n : DotDims S256x16x4608 S4608x4096 S256x16x4096 where
  lhsContracting := [2]
  rhsContracting := [0]
  lhsNonContracting := [0, 1]
  rhsNonContracting := [1]
  lhsBatch := []
  rhsBatch := []
  wf := dot_S256x16x4608_S4608x4096_S256x16x4096_2_0_01_1_n_n_wf
def dot_S256x16x4096_S4096x1024_S256x16x1024_2_0_01_1_n_n : DotDims S256x16x4096 S4096x1024 S256x16x1024 where
  lhsContracting := [2]
  rhsContracting := [0]
  lhsNonContracting := [0, 1]
  rhsNonContracting := [1]
  lhsBatch := []
  rhsBatch := []
  wf := dot_S256x16x4096_S4096x1024_S256x16x1024_2_0_01_1_n_n_wf

class Facts : Prop extends Facts₀ where

variable [Facts]
-- ==== Proof.K.Runs.lean ====
import proofs.«113232_j56367150792892_1_alg».proof.Proof.Gen.Kernel.Launch
import proofs.«113232_j56367150792892_1_alg».proof.Proof.Gen.Kernel.Skeleton
import proofs.«113232_j56367150792892_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is twenty-eight host operations (they build the feature matrix and cast the weights), the region, and four
host operations (the sum over the sixteen columns of each sample and the subtraction from the phases). -/

/-- Core `c`'s buffer contents when the region is entered: after the host operations before it. -/
abbrev atEntry0 (c : Dev nD) : Valuation τ sig (Elt F) := StableHlo.after (List.flatten [hostOps0]) (fun b => m (c, b))
/-- The same read at a TensorCore reference. -/
abbrev atEntry (c : Dev nD) (b : Ref sig .tc) : Buf (Elt F) ((c : Thread nD τ).loc b) := atEntry0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines. -/
theorem mainAround (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and no window stages it: it ends as launched. -/
theorem atExit_arg0 (dats : (p : Fin _) → (c : Dev nD) → Dat τ (Elt F) Unit ℕ (UR sig nD τ) ℕ (cfgs p) c) (c : Dev nD) :
    Pipeline.afterTail₀ cfgs dats 0 (atEntry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg0 (by exact (by decide : ∀ w, Pipeline.arrRef spec0 w ≠ main_arg0))]
  exact atEntry_arg0 m c
/-- No host operation after the region writes argument 1, and no window stages it: it ends as launched. -/
theorem atExit_arg1 (dats : (p : Fin _) → (c : Dev nD) → Dat τ (Elt F) Unit ℕ (UR sig nD τ) ℕ (cfgs p) c) (c : Dev nD) :
    Pipeline.afterTail₀ cfgs dats 0 (atEntry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg1 (by exact (by decide : ∀ w, Pipeline.arrRef spec0 w ≠ main_arg1))]
  exact atEntry_arg1 m c
/-- No host operation after the region writes argument 2, and no window stages it: it ends as launched. -/
theorem atExit_arg2 (dats : (p : Fin _) → (c : Dev nD) → Dat τ (Elt F) Unit ℕ (UR sig nD τ) ℕ (cfgs p) c) (c : Dev nD) :
    Pipeline.afterTail₀ cfgs dats 0 (atEntry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg2 (by exact (by decide : ∀ w, Pipeline.arrRef spec0 w ≠ main_arg2))]
  exact atEntry_arg2 m c
/-- No host operation after the region writes argument 3, and no window stages it: it ends as launched. -/
theorem atExit_arg3 (dats : (p : Fin _) → (c : Dev nD) → Dat τ (Elt F) Unit ℕ (UR sig nD τ) ℕ (cfgs p) c) (c : Dev nD) :
    Pipeline.afterTail₀ cfgs dats 0 (atEntry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg3 (by exact (by decide : ∀ w, Pipeline.arrRef spec0 w ≠ main_arg3))]
  exact atEntry_arg3 m c
/-- No host operation after the region writes argument 4, and no window stages it: it ends as launched. -/
theorem atExit_arg4 (dats : (p : Fin _) → (c : Dev nD) → Dat τ (Elt F) Unit ℕ (UR sig nD τ) ℕ (cfgs p) c) (c : Dev nD) :
    Pipeline.afterTail₀ cfgs dats 0 (atEntry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg4 (by exact (by decide : ∀ w, Pipeline.arrRef spec0 w ≠ main_arg4))]
  exact atEntry_arg4 m c
/-- No host operation after the region writes argument 5, and no window stages it: it ends as launched. -/
theorem atExit_arg5 (dats : (p : Fin _) → (c : Dev nD) → Dat τ (Elt F) Unit ℕ (UR sig nD τ) ℕ (cfgs p) c) (c : Dev nD) :
    Pipeline.afterTail₀ cfgs dats 0 (atEntry0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg5 (by exact (by decide : ∀ w, Pipeline.arrRef spec0 w ≠ main_arg5))]
  exact atEntry_arg5 m c
/-- No host operation after the region writes argument 6, and no window stages it: it ends as launched. -/
theorem atExit_arg6 (dats : (p : Fin _) → (c : Dev nD) → Dat τ (Elt F) Unit ℕ (UR sig nD τ) ℕ (cfgs p) c) (c : Dev nD) :
    Pipeline.afterTail₀ cfgs dats 0 (atEntry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg6 (by exact (by decide : ∀ w, Pipeline.arrRef spec0 w ≠ main_arg6))]
  exact atEntry_arg6 m c
/-- No host operation after the region writes argument 7, and no window stages it: it ends as launched. -/
theorem atExit_arg7 (dats : (p : Fin _) → (c : Dev nD) → Dat τ (Elt F) Unit ℕ (UR sig nD τ) ℕ (cfgs p) c) (c : Dev nD) :
    Pipeline.afterTail₀ cfgs dats 0 (atEntry0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg7 (by exact (by decide : ∀ w, Pipeline.arrRef spec0 w ≠ main_arg7))]
  exact atEntry_arg7 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not, for any proof
    data whose array is the entry contents and whose body leaves the block in place. -/
theorem found0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not, for any proof
    data whose array is the entry contents and whose body leaves the block in place. -/
theorem found1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not, for any proof
    data whose array is the entry contents and whose body leaves the block in place. -/
theorem found2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not, for any proof
    data whose array is the entry contents and whose body leaves the block in place. -/
theorem found3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not, for any proof
    data whose array is the entry contents and whose body leaves the block in place. -/
theorem found4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the frame run's -/

/-- For any proof data whose arrays are the region-entry contents, a run to the library's frame post gives the frame
    claim's post: no window stages an argument, no host line writes one. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (atEntry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (atExit_arg0 m dats c),
      ((h c).2 main_arg1 (Pipeline.mem_restRefs_of main_arg1 (by decide) (by decide))).trans (atExit_arg1 m dats c),
      ((h c).2 main_arg2 (Pipeline.mem_restRefs_of main_arg2 (by decide) (by decide))).trans (atExit_arg2 m dats c),
      ((h c).2 main_arg3 (Pipeline.mem_restRefs_of main_arg3 (by decide) (by decide))).trans (atExit_arg3 m dats c),
      ((h c).2 main_arg4 (Pipeline.mem_restRefs_of main_arg4 (by decide) (by decide))).trans (atExit_arg4 m dats c),
      ((h c).2 main_arg5 (Pipeline.mem_restRefs_of main_arg5 (by decide) (by decide))).trans (atExit_arg5 m dats c),
      ((h c).2 main_arg6 (Pipeline.mem_restRefs_of main_arg6 (by decide) (by decide))).trans (atExit_arg6 m dats c),
      ((h c).2 main_arg7 (Pipeline.mem_restRefs_of main_arg7 (by decide) (by decide))).trans (atExit_arg7 m dats c)⟩) h

/-! ## The body's two branch conditions -/

/-- The accumulator is reset where the hidden-block coordinate is 0. -/
abbrev atFirstK (i : grid0.Coords) : Prop := (Scalar.cmpi .ne (Scalar.extui (Scalar.cmpi .eq (BitVec.ofNat 32 (i 1).val) 0#32)) 0#32) = 1#1
/-- Those are the points ≡ 0 (mod 8). -/
theorem atFirstK_iff : ∀ t : Fin cfg0.N, atFirstK (grid0.coords t) ↔ t.val % 8 = 0 :=
  (by decide +kernel : ∀ t : Fin grid0.N, atFirstK (grid0.coords t) ↔ t.val % 8 = 0)

/-- The output block is stored where the hidden-block coordinate is 7. -/
abbrev atLastK (i : grid0.Coords) : Prop := k0_cond2 i = 1#1
/-- Those are the points ≡ 7 (mod 8). -/
theorem atLastK_iff : ∀ t : Fin cfg0.N, atLastK (grid0.coords t) ↔ t.val % 8 = 7 :=
  (by decide +kernel : ∀ t : Fin grid0.N, atLastK (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last hidden block the output window is idle: the body stores nothing into it, -/
theorem idle5 : ∀ t : Fin cfg0.N, ¬atLastK (grid0.coords t) → cfg0.idle 5 (grid0.coords t) = true := by decide +kernel
/-- and the pipeline does not write its block back. -/
theorem noFlush5 : ∀ t : Fin cfg0.N, ¬atLastK (grid0.coords t) → (cfg0.win 5).flush t = false := by decide +kernel
/-- At the last hidden block it is live. -/
theorem live5 : ∀ t : Fin cfg0.N, atLastK (grid0.coords t) → cfg0.idle 5 (grid0.coords t) = false := by decide +kernel

/-! ## The staging memrefs and the accumulator -/

/-- One staging buffer of the output window, through which its contents are stated. -/
abbrev outView : View sig .tc .vmem S512x1024 .f32 := (Memref.whole cc0_stg5_0 : Memref sig .tc .vmem S512x1024 .f32).view
abbrev buf0 (t : Fin cfg0.N) : Memref sig .tc .vmem S512x4608 .bf16 := win0_0.stage (cfg0.slots t 0)
abbrev wh0 (t : Fin cfg0.N) : (buf0 t).IsWhole := hstage0_0 ((cfg0.slots t 0).cast nbuf0_0)
abbrev buf1 (t : Fin cfg0.N) : Memref sig .tc .vmem S4608x512 .bf16 := win0_1.stage (cfg0.slots t 1)
abbrev wh1 (t : Fin cfg0.N) : (buf1 t).IsWhole := hstage0_1 ((cfg0.slots t 1).cast nbuf0_1)
abbrev buf2 (t : Fin cfg0.N) : Memref sig .tc .vmem S1x512 .f32 := win0_2.stage (cfg0.slots t 2)
abbrev wh2 (t : Fin cfg0.N) : (buf2 t).IsWhole := hstage0_2 ((cfg0.slots t 2).cast nbuf0_2)
abbrev buf3 (t : Fin cfg0.N) : Memref sig .tc .vmem S512x1024 .bf16 := win0_3.stage (cfg0.slots t 3)
abbrev wh3 (t : Fin cfg0.N) : (buf3 t).IsWhole := hstage0_3 ((cfg0.slots t 3).cast nbuf0_3)
abbrev buf4 (t : Fin cfg0.N) : Memref sig .tc .vmem S1x1024 .f32 := win0_4.stage (cfg0.slots t 4)
abbrev wh4 (t : Fin cfg0.N) : (buf4 t).IsWhole := hstage0_4 ((cfg0.slots t 4).cast nbuf0_4)
abbrev buf5 (t : Fin cfg0.N) : Memref sig .tc .vmem S512x1024 .f32 := win0_5.stage (cfg0.slots t 5)
abbrev wh5 (t : Fin cfg0.N) : (buf5 t).IsWhole := hstage0_5 ((cfg0.slots t 5).cast nbuf0_5)
/-- The accumulator: a whole scoped buffer of the kernel's own, carried between points. -/
abbrev accM : Memref sig .tc .vmem S512x1024 .f32 := Memref.whole cc0_scratch0
abbrev accView : View sig .tc .vmem S512x1024 .f32 := accM.view

/-- The region's invariant with the accumulator as a memref owned at some contents. -/
theorem invA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Fr

end
-- ==== Proof.K.RunFirst.lean ====
import proofs.«113232_j56367150792892_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the hidden-block coordinate is 0: on whole staging memrefs holding the five input blocks, the output's buffer at contents handed back untouched, and the accumulator at anything, the body runs to its end with the inputs as they were and the accumulator written piece by piece (the reset, then the first product added to it); the pieces are what the run finds. -/
noncomputable def runFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) :
    Σ' (L5 : List (View.Piece (Elt F) S512x1024 .f32)), { LS : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg2 harg2 arg3 harg3 arg4 harg4 arg5 harg5 arg6 harg6 arg7 harg7 arg8 harg8) K } := by
  refine ⟨[], ?_, fun xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Fr

end
-- ==== Proof.K.RunMid.lean ====
import proofs.«113232_j56367150792892_1_alg».proof.Proof.K.RunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the hidden-block coordinate is neither 0 nor 7: the accumulator comes in at what the point before left and goes out with this block's product added. -/
noncomputable def runMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) :
    Σ' (L5 : List (View.Piece (Elt F) S512x1024 .f32)), { LS : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg2 harg2 arg3 harg3 arg4 harg4 arg5 harg5 arg6 harg6 arg7 harg7 arg8 harg8) K } := by
  refine ⟨[], ?_, fun xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Fr

end
-- ==== Proof.K.RunLast.lean ====
import proofs.«113232_j56367150792892_1_alg».proof.Proof.K.RunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the hidden-block coordinate is 7: the accumulator comes in at what the point before left, the last product is added, and the output's buffer, taken at anything, is stored whole with the accumulator plus the second bias. -/
noncomputable def runLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) :
    Σ' (L5 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg2 harg2 arg3 harg3 arg4 harg4 arg5 harg5 arg6 harg6 arg7 harg7 arg8 harg8) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Fr

end
-- ==== Proof.K.Frame.lean ====
import proofs.«113232_j56367150792892_1_alg».proof.Proof.K.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the accumulator covers it. -/
theorem accCoverFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) (y : S512x1024.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S512x1024.size (by sl_kernel_rfl) y

/-- What this case leaves in the accumulator: its pieces read back. -/
def accAfterFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) : Vec F S512x1024 .f32 :=
  accView.read (Elt F) (accView.writes (Elt F) accView.junk (runFirst c i arg2 harg2 arg3 harg3 arg4 harg4 arg5 harg5 arg6 harg6 arg7 harg7 arg8 harg8 hc0 hc1 x0 x1 x2 x3 x4).2.1)

/-- What this case leaves in the output's staging buffer: its pieces read back (none where the window is idle: a
    placeholder nothing consults). -/
def outAfterFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) : Vec F S512x1024 .f32 :=
  outView.read (Elt F) (outView.writes (Elt F) outView.junk (runFirst c i arg2 harg2 arg3 harg3 arg4 harg4 arg5 harg5 arg6 harg6 arg7 harg7 arg8 harg8 hc0 hc1 x0 x1 x2 x3 x4).1)

/-- What this case leaves in the accumulator covers it. -/
theorem accCoverMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) (y : S512x1024.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S512x1024.size (by sl_kernel_rfl) y

/-- What this case leaves in the accumulator: its pieces read back. -/
def accAfterMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  accView.read (Elt F) (accView.writes (Elt F) accView.junk (runMid c i arg2 harg2 arg3 harg3 arg4 harg4 arg5 harg5 arg6 harg6 arg7 harg7 arg8 harg8 hc0 hc1 x0 x1 x2 x3 x4 xs).2.1)

/-- What this case leaves in the output's staging buffer: its pieces read back (none where the window is idle: a
    placeholder nothing consults). -/
def outAfterMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  outView.read (Elt F) (outView.writes (Elt F) outView.junk (runMid c i arg2 harg2 arg3 harg3 arg4 harg4 arg5 harg5 arg6 harg6 arg7 harg7 arg8 harg8 hc0 hc1 x0 x1 x2 x3 x4 xs).1)

/-- What this case leaves in the accumulator covers it. -/
theorem accCoverLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) (y : S512x1024.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S512x1024.size (by sl_kernel_rfl) y

/-- What this case leaves in the accumulator: its pieces read back. -/
def accAfterLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  accView.read (Elt F) (accView.writes (Elt F) accView.junk (runLast c i arg2 harg2 arg3 harg3 arg4 harg4 arg5 harg5 arg6 harg6 arg7 harg7 arg8 harg8 hc0 hc1 x0 x1 x2 x3 x4 xs).2.1)

/-- What this case leaves in the output's staging buffer: its pieces read back (none where the window is idle: a
    placeholder nothing consults). -/
def outAfterLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  outView.read (Elt F) (outView.writes (Elt F) outView.junk (runLast c i arg2 harg2 arg3 harg3 arg4 harg4 arg5 harg5 arg6 harg6 arg7 harg7 arg8 harg8 hc0 hc1 x0 x1 x2 x3 x4 xs).1)

/-- At the last hidden block the store into the output's buffer covers it. -/
theorem outCoverLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) (y : S512x1024.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S512x1024.size (by sl_kernel_rfl) y

/-! ## What the output's buffer and the accumulator hold after each point -/

/-- After the body at position `n`: the output's staging buffer and the accumulator, by recursion on the point — the
    case the hidden-block coordinate selects, run at the point's memrefs and input blocks, the accumulator coming in
    at what the point before left. -/
def heldAfter (c : Dev nD) : (n : ℕ) → n < cfg0.N → Vec F S512x1024 .f32 × Vec F S512x1024 .f32
  | 0, hn => (outAfterFirst c (grid0.coords ⟨0, hn⟩) (buf0 ⟨0, hn⟩) (wh0 ⟨0, hn⟩) (buf1 ⟨0, hn⟩) (wh1 ⟨0, hn⟩) (buf2 ⟨0, hn⟩) (wh2 ⟨0, hn⟩) (buf3 ⟨0, hn⟩) (wh3 ⟨0, hn⟩) (buf4 ⟨0, hn⟩) (wh4 ⟨0, hn⟩) (buf5 ⟨0, hn⟩) (wh5 ⟨0, hn⟩) accM (Memref.isWhole_whole _) ((atFirstK_iff ⟨0, hn⟩).mpr (Nat.zero_mod _)) (fun h => (fun h => by (try dsimp only at h); omega) ((atLastK_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩), accAfterFirst c (grid0.coords ⟨0, hn⟩) (buf0 ⟨0, hn⟩) (wh0 ⟨0, hn⟩) (buf1 ⟨0, hn⟩) (wh1 ⟨0, hn⟩) (buf2 ⟨0, hn⟩) (wh2 ⟨0, hn⟩) (buf3 ⟨0, hn⟩) (wh3 ⟨0, hn⟩) (buf4 ⟨0, hn⟩) (wh4 ⟨0, hn⟩) (buf5 ⟨0, hn⟩) (wh5 ⟨0, hn⟩) accM (Memref.isWhole_whole _) ((atFirstK_iff ⟨0, hn⟩).mpr (Nat.zero_mod _)) (fun h => (fun h => by (try dsimp only at h); omega) ((atLastK_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩))
  | n + 1, hn =>
    if h0 : (n + 1) % 8 = 0 then
      if h1 : (n + 1) % 8 = 7 then
        False.elim (by omega)
      else
        (outAfterFirst c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) ((atFirstK_iff ⟨n + 1, hn⟩).mpr h0) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩), accAfterFirst c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) ((atFirstK_iff ⟨n + 1, hn⟩).mpr h0) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩))
    else
      if h1 : (n + 1) % 8 = 7 then
        (outAfterLast c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) ((atLastK_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2, accAfterLast c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) ((atLastK_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2)
      else
        (outAfterMid c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2, accAfterMid c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2)

theorem heldAfter_first (c : Dev nD) (t : Fin cfg0.N) (h0 : t.val % 8 = 0) (h1 : ¬t.val % 8 = 7) :
    heldAfter m c t.val t.isLt = (outAfterFirst c (grid0.coords t) (buf0 t) (wh0 t) (buf1 t) (wh1 t) (buf2 t) (wh2 t) (buf3 t) (wh3 t) (buf4 t) (wh4 t) (buf5 t) (wh5 t) accM (Memref.isWhole_whole _) ((atFirstK_iff t).mpr h0) (fun h => h1 ((atLastK_iff t).mp h)) (blockAt m c 0 t) (blockAt m c 1 t) (blockAt m c 2 t) (blockAt m c 3 t) (blockAt m c 4 t), accAfterFirst c (grid0.coords t) (buf0 t) (wh0 t) (buf1 t) (wh1 t) (buf2 t) (wh2 t) (buf3 t) (wh3 t) (buf4 t) (wh4 t) (buf5 t) (wh5 t) accM (Memref.isWhole_whole _) ((atFirstK_iff t).mpr h0) (fun h => h1 ((atLastK_iff t).mp h)) (blockAt m c 0 t) (blockAt m c 1 t) (blockAt m c 2 t) (blockAt m c 3 t) (blockAt m c 4 t)) := by
  obtain ⟨n, hn⟩ := t
  cases n with
  | zero => exact rfl
  | succ n => exact (dif_pos h0).trans ((dif_neg h1).trans rfl)

theorem heldAfter_mid (c : Dev nD) (t : Fin cfg0.N) (h0 : ¬t.val % 8 = 0) (h1 : ¬t.val % 8 = 7) :
    heldAfter m c t.val t.isLt = (outAfterMid c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) (fun h => h1 ((atLastK_iff t).mp h)) (blockAt m c 0 t) (blockAt m c 1 t) (blockAt m c 2 t) (blockAt m c 3 t) (blockAt m c 4 t) (heldAfter m c (t.val - 1) (Nat.lt_of_le_of_lt (Nat.sub_le _ _) t.isLt)).2, accAfterMid c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) (fun h => h1 ((atLastK_iff t).mp h)) (blockAt m c 0 t) (blockAt m c 1 t) (blockAt m c 2 t) (blockAt m c 3 t) (blockAt m c 4 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem heldAfter_last (c : Dev nD) (t : Fin cfg0.N) (h0 : ¬t.val % 8 = 0) (h1 : t.val % 8 = 7) :
    heldAfter m c t.val t.isLt = (outAfterLast c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) ((atLastK_iff t).mpr h1) (blockAt m c 0 t) (blockAt m c 1 t) (blockAt m c 2 t) (blockAt m c 3 t) (blockAt m c 4 t) (heldAfter m c (t.val - 1) (Nat.lt_of_le_of_lt (Nat.sub_le _ _) t.isLt)).2, accAfterLast c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) ((atLastK_iff t).mpr h1) (blockAt m c 0 t) (blockAt m c 1 t) (blockAt m c 2 t) (blockAt m c 3 t) (blockAt m c 4 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, and the generator register at some state. -/
def accInv (c : Dev nD) : (n : ℕ) → n ≤ cfg0.N → sProp 𝕄
  | 0, _ => Pipeline.ΦA spec0 c
  | n + 1, hn => iprop(iprop(owns (c : Thread nD τ) accM fullShare ((heldAfter m c n hn).2)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare ((heldAfter m c n hn).2)) ∗ (∃ r, prngReg c r)) := rfl

theorem accInv_pos (c : Dev nD) (n : ℕ) (h : n ≤ cfg0.N) (hz : n ≠ 0) :
    accInv m c n h = iprop(iprop(owns (c : Thread nD τ) accM fullShare ((heldAfter m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `heldAfter`; the invariant `accInv`; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => (heldAfter m c t.val t.isLt).1
  Φ t := accInv m c t.val (Nat.le_of_lt_succ t.isLt)
  q _ := fullShare
  owed _ := 0

theorem pdata_A (c : Dev nD) (w : Fin cfg0.W) : (pdata m 0 c).A w = atEntry m c (Pipeline.arrRef spec0 w) := by
  dsimp only [pdata]

theorem accInv_castSucc (c : Dev nD) (t : Fin cfg0.N) :
    (pdata m 0 c).Φ t.castSucc = accInv m c t.val (Nat.le_of_lt t.isLt) := by
  dsimp only [pdata]; simp only [Fin.coe_castSucc]

theorem after0 (c : Dev nD) (t : Fin cfg0.N) : (pdata m 0 c).after 0 t = blockAt m c 0 t := by dsimp only [pdata]
theorem after1 (c : Dev nD) (t : Fin cfg0.N) : (pdata m 0 c).after 1 t = blockAt m c 1 t := by dsimp only [pdata]
theorem after2 (c : Dev nD) (t : Fin cfg0.N) : (pdata m 0 c).after 2 t = blockAt m c 2 t := by dsimp only [pdata]
theorem after3 (c : Dev nD) (t : Fin cfg0.N) : (pdata m 0 c).after 3 t = blockAt m c 3 t := by dsimp only [pdata]
theorem after4 (c : Dev nD) (t : Fin cfg0.N) : (pdata m 0 c).after 4 t = blockAt m c 4 t := by dsimp only [pdata]
theorem after5 (c : Dev nD) (t : Fin cfg0.N) : (pdata m 0 c).after 5 t = (heldAfter m c t.val t.isLt).1 := by dsimp only [pdata]

theorem found0 (c : Dev nD) (t : Fin cfg0.N) (d) : (pdata m 0 c).before 0 t d = blockAt m c 0 t :=
  found0_of m (pdata m 0 c) (pdata_A m c 0) (after0 m c) t d
theorem found1 (c : Dev nD) (t : Fin cfg0.N) (d) : (pdata m 0 c).before 1 t d = blockAt m c 1 t :=
  found1_of m (pdata m 0 c) (pdata_A m c 1) (after1 m c) t d
theorem found2 (c : Dev nD) (t : Fin cfg0.N) (d) : (pdata m 0 c).before 2 t d = blockAt m c 2 t :=
  found2_of m (pdata m 0 c) (pdata_A m c 2) (after2 m c) t d
theorem found3 (c : Dev nD) (t : Fin cfg0.N) (d) : (pdata m 0 c).before 3 t d = blockAt m c 3 t :=
  found3_of m (pdata m 0 c) (pdata_A m c 3) (after3 m c) t d
theorem found4 (c : Dev nD) (t : Fin cfg0.N) (d) : (pdata m 0 c).before 4 t d = blockAt m c 4 t :=
  found4_of m (pdata m 0 c) (pdata_A m c 4) (after4 m c) t d

/-! ## The body obligation, at a generic point -/

def bodyPre (c : Dev nD) (t : Fin cfg0.N) : sProp 𝕄 :=
  iprop((pdata m 0 c).Φ t.castSucc ∗ (pdata m 0 c).owesAt () t.castSucc
    ∗ (∃ d, owns (c : Thread nD τ) (buf0 t) fullShare ((pdata m 0 c).before 0 t d))
    ∗ (∃ d, owns (c : Thread nD τ) (buf1 t) fullShare ((pdata m 0 c).before 1 t d))
    ∗ (∃ d, owns (c : Thread nD τ) (buf2 t) fullShare ((pdata m 0 c).before 2 t d))
    ∗ (∃ d, owns (c : Thread nD τ) (buf3 t) fullShare ((pdata m 0 c).before 3 t d))
    ∗ (∃ d, owns (c : Thread nD τ) (buf4 t) fullShare ((pdata m 0 c).before 4 t d))
    ∗ (∃ d, owns (c : Thread nD τ) (buf5 t) fullShare ((pdata m 0 c).before 5 t d)))

def bodyPost (c : Dev nD) (t : Fin cfg0.N) : sProp 𝕄 :=
  iprop((pdata m 0 c).Φ t.succ ∗ (pdata m 0 c).owesAt () t.succ
    ∗ (pdata m 0 c).leavesExact 0 t
    ∗ (pdata m 0 c).leavesExact 1 t
    ∗ (pdata m 0 c).leavesExact 2 t
    ∗ (pdata m 0 c).leavesExact 3 t
    ∗ (pdata m 0 c).leavesExact 4 t
    ∗ (pdata m 0 c).leavesExact 5 t)

set_option maxHeartbeats 8000000 in
/-- The body at any point: the inputs' memrefs hold their blocks; the hidden-block coordinate says which case the
    point is in; the invariant hands the body the accumulator at what the point before left (at anything at the very
    first point, and forgotten where the accumulator is reset) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4]
  rw [show (pdata m 0 c).owesAt () t.succ = (pdata m 0 c).owesAt () t.castSucc from rfl]
  rw [show (pdata m 0 c).Φ t.succ = accInv m c (t.val + 1) t.isLt from rfl, accInv_succ]
  have hN : t.val < 64 := lt_of_lt_of_eq t.isLt (show cfg0.N = 64 from N_0)
  rw [show (pdata m 0 c).leavesExact 0 t = owns (c : Thread nD τ) (buf0 t) fullShare ((pdata m 0 c).after 0 t) from by
    unfold Dat.leavesExact; rw [live0 t], after0]
  rw [show (pdata m 0 c).leavesExact 1 t = owns (c : Thread nD τ) (buf1 t) fullShare ((pdata m 0 c).after 1 t) from by
    unfold Dat.leavesExact; rw [live1 t], after1]
  rw [show (pdata m 0 c).leavesExact 2 t = owns (c : Thread nD τ) (buf2 t) fullShare ((pdata m 0 c).after 2 t) from by
    unfold Dat.leavesExact; rw [live2 t], after2]
  rw [show (pdata m 0 c).leavesExact 3 t = owns (c : Thread nD τ) (buf3 t) fullShare ((pdata m 0 c).after 3 t) from by
    unfold Dat.leavesExact; rw [live3 t], after3]
  rw [show (pdata m 0 c).leavesExact 4 t = owns (c : Thread nD τ) (buf4 t) fullShare ((pdata m 0 c).after 4 t) from by
    unfold Dat.leavesExact; rw [live4 t], after4]
  by_cases h0 : t.val % 8 = 0
  · have h1 : ¬t.val % 8 = 7 := by omega
    rw [Dat.leavesExact_idle (pdata m 0 c) 5 t (idle5 t (fun h => h1 ((atLastK_iff t).mp h))) (noFlush5 t (fun h => h1 ((atLastK_iff t).mp h)))]
    rw [heldAfter_first m c t h0 h1]
    unfold accAfterFirst; (try dsimp only)
    by_cases hz : t.val = 0
    · rw [accInv_castSucc m c t, accInv_zero m c _ _ hz, invA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((atFirstK_iff t).mpr h0) (fun h => h1 ((atLastK_iff t).mp h)) (blockAt m c 0 t) (blockAt m c 1 t) (blockAt m c 2 t) (blockAt m c 3 t) (blockAt m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((atFirstK_iff t).mpr h0) (fun h => h1 ((atLastK_iff t).mp h)) (blockAt m c 0 t) (blockAt m c 1 t) (blockAt m c 2 t) (blockAt m c 3 t) (blockAt m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 8 = 7
    · rw [show (pdata m 0 c).leavesExact 5 t = owns (c : Thread nD τ) (buf5 t) fullShare ((pdata m 0 c).after 5 t) from by
        unfold Dat.leavesExact; rw [live5 t ((atLastK_iff t).mpr h1)], after5]
      rw [heldAfter_last m c t h0 h1]
      unfold outAfterLast accAfterLast; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((atFirstK_iff t).mp h)) ((atLastK_iff t).mpr h1) (blockAt m c 0 t) (blockAt m c 1 t) (blockAt m c 2 t) (blockAt m c 3 t) (blockAt m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [Dat.leavesExact_idle (pdata m 0 c) 5 t (idle5 t (fun h => h1 ((atLastK_iff t).mp h))) (noFlush5 t (fun h => h1 ((atLastK_iff t).mp h)))]
      rw [heldAfter_mid m c t h0 h1]
      unfold accAfterMid; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((atFirstK_iff t).mp h)) (fun h => h1 ((atLastK_iff t).mp h)) (blockAt m c 0 t) (blockAt m c 1 t) (blockAt m c 2 t) (blockAt m c 3 t) (blockAt m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (accCoverMid c _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (pdata (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (pdata m 0 c).Φ 0 := by
  rw [show (pdata m 0 c).Φ 0 = accInv m c 0 (Nat.zero_le _) from rfl, accInv_zero m c 0 _ rfl]
  try exact Idealize.SL.BI.Entails.refl _

/-- After any point but the first the invariant gives the class's back: the accumulator's named contents are forgotten. -/
theorem inv_forget (c : Dev nD) (t : Fin (cfg0.N + 1)) (ht : t.val ≠ 0) : (pdata m 0 c).Φ t ⊢ Pipeline.ΦA spec0 c := by
  rw [show (pdata m 0 c).Φ t = accInv m c t.val (Nat.le_of_lt_succ t.isLt) from rfl, accInv_pos m c _ _ ht, invA_eq]
  iintro ⟨HS, Hg⟩
  isplitl [HS]
  · iexists _; iexact HS
  iexact Hg

theorem inv_out (c : Dev nD) : (pdata m 0 c).Φ (Fin.last cfg0.N) ⊢ Pipeline.ΦA spec0 c :=
  inv_forget m c _ (by rw [Fin.val_last]; have : cfg0.N = 64 := N_0; omega)

/-! ## The run and the frame -/

set_option backward.isDefEq.respectTransparency.types false in
/-- From any memory with zero counters every weakly fair execution of the program on the TensorCores terminates, and
    every final state has every array of the pipeline at what the library computes from the proof data and every other
    unscoped buffer as the lines after the region leave it. -/
theorem run_main : θ_run defs (onTc (τ := τ) (main (F := F))) (s₀ m ρ) (Pipeline.FramePost cfgs (pdata m) 0 (Pipeline.afterTail₀ cfgs (pdata m) 0 (atEntry0 m) [hostOps1])) :=
  Pipeline.θ_run_frame_around_track cfgs (pdata m) (0 : Fin 1) launch0 defs₀ Variants.none m ρ main
    (hbody := fun c => (body_obligation m c).loose) (hshare := fun c => (pdata m 0 c).share_full fun _ => rfl)
    (howed := fun _ _ => rfl) (V₀ := atEntry0 m) (opss := [hostOps1]) (hsub := tail_sub) (hfresh := tail_fresh) (hkeep := tail_keeps)
    (hmain := mainAround m Variants.none) (hA := pdata_A m) (hin := inv_in m) (hout := inv_out m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (pdata m) (pdata_A m) (run_main m ρ)

end Cert.Kernel.Fr

end
-- ==== Proof.KI.Runs.lean ====
import proofs.«113232_j56367150792892_1_alg».proof.Proof.Gen.KernelIdeal.Launch
import proofs.«113232_j56367150792892_1_alg».proof.Proof.Gen.KernelIdeal.Skeleton
import proofs.«113232_j56367150792892_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is twenty-eight host operations (they build the feature matrix and cast the weights), the region, and four
host operations (the sum over the sixteen columns of each sample and the subtraction from the phases). -/

/-- Core `c`'s buffer contents when the region is entered: after the host operations before it. -/
abbrev atEntry0 (c : Dev nD) : Valuation τ sig (Elt F) := StableHlo.after (List.flatten [hostOps0]) (fun b => m (c, b))
/-- The same read at a TensorCore reference. -/
abbrev atEntry (c : Dev nD) (b : Ref sig .tc) : Buf (Elt F) ((c : Thread nD τ).loc b) := atEntry0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines. -/
theorem mainAround (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and no window stages it: it ends as launched. -/
theorem atExit_arg0 (dats : (p : Fin _) → (c : Dev nD) → Dat τ (Elt F) Unit ℕ (UR sig nD τ) ℕ (cfgs p) c) (c : Dev nD) :
    Pipeline.afterTail₀ cfgs dats 0 (atEntry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg0 (by exact (by decide : ∀ w, Pipeline.arrRef spec0 w ≠ main_arg0))]
  exact atEntry_arg0 m c
/-- No host operation after the region writes argument 1, and no window stages it: it ends as launched. -/
theorem atExit_arg1 (dats : (p : Fin _) → (c : Dev nD) → Dat τ (Elt F) Unit ℕ (UR sig nD τ) ℕ (cfgs p) c) (c : Dev nD) :
    Pipeline.afterTail₀ cfgs dats 0 (atEntry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg1 (by exact (by decide : ∀ w, Pipeline.arrRef spec0 w ≠ main_arg1))]
  exact atEntry_arg1 m c
/-- No host operation after the region writes argument 2, and no window stages it: it ends as launched. -/
theorem atExit_arg2 (dats : (p : Fin _) → (c : Dev nD) → Dat τ (Elt F) Unit ℕ (UR sig nD τ) ℕ (cfgs p) c) (c : Dev nD) :
    Pipeline.afterTail₀ cfgs dats 0 (atEntry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg2 (by exact (by decide : ∀ w, Pipeline.arrRef spec0 w ≠ main_arg2))]
  exact atEntry_arg2 m c
/-- No host operation after the region writes argument 3, and no window stages it: it ends as launched. -/
theorem atExit_arg3 (dats : (p : Fin _) → (c : Dev nD) → Dat τ (Elt F) Unit ℕ (UR sig nD τ) ℕ (cfgs p) c) (c : Dev nD) :
    Pipeline.afterTail₀ cfgs dats 0 (atEntry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg3 (by exact (by decide : ∀ w, Pipeline.arrRef spec0 w ≠ main_arg3))]
  exact atEntry_arg3 m c
/-- No host operation after the region writes argument 4, and no window stages it: it ends as launched. -/
theorem atExit_arg4 (dats : (p : Fin _) → (c : Dev nD) → Dat τ (Elt F) Unit ℕ (UR sig nD τ) ℕ (cfgs p) c) (c : Dev nD) :
    Pipeline.afterTail₀ cfgs dats 0 (atEntry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg4 (by exact (by decide : ∀ w, Pipeline.arrRef spec0 w ≠ main_arg4))]
  exact atEntry_arg4 m c
/-- No host operation after the region writes argument 5, and no window stages it: it ends as launched. -/
theorem atExit_arg5 (dats : (p : Fin _) → (c : Dev nD) → Dat τ (Elt F) Unit ℕ (UR sig nD τ) ℕ (cfgs p) c) (c : Dev nD) :
    Pipeline.afterTail₀ cfgs dats 0 (atEntry0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg5 (by exact (by decide : ∀ w, Pipeline.arrRef spec0 w ≠ main_arg5))]
  exact atEntry_arg5 m c
/-- No host operation after the region writes argument 6, and no window stages it: it ends as launched. -/
theorem atExit_arg6 (dats : (p : Fin _) → (c : Dev nD) → Dat τ (Elt F) Unit ℕ (UR sig nD τ) ℕ (cfgs p) c) (c : Dev nD) :
    Pipeline.afterTail₀ cfgs dats 0 (atEntry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg6 (by exact (by decide : ∀ w, Pipeline.arrRef spec0 w ≠ main_arg6))]
  exact atEntry_arg6 m c
/-- No host operation after the region writes argument 7, and no window stages it: it ends as launched. -/
theorem atExit_arg7 (dats : (p : Fin _) → (c : Dev nD) → Dat τ (Elt F) Unit ℕ (UR sig nD τ) ℕ (cfgs p) c) (c : Dev nD) :
    Pipeline.afterTail₀ cfgs dats 0 (atEntry0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (atEntry0 m c) _ main_arg7 (by exact (by decide : ∀ w, Pipeline.arrRef spec0 w ≠ main_arg7))]
  exact atEntry_arg7 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not, for any proof
    data whose array is the entry contents and whose body leaves the block in place. -/
theorem found0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not, for any proof
    data whose array is the entry contents and whose body leaves the block in place. -/
theorem found1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not, for any proof
    data whose array is the entry contents and whose body leaves the block in place. -/
theorem found2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not, for any proof
    data whose array is the entry contents and whose body leaves the block in place. -/
theorem found3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not, for any proof
    data whose array is the entry contents and whose body leaves the block in place. -/
theorem found4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the frame run's -/

/-- For any proof data whose arrays are the region-entry contents, a run to the library's frame post gives the frame
    claim's post: no window stages an argument, no host line writes one. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (atEntry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (atExit_arg0 m dats c),
      ((h c).2 main_arg1 (Pipeline.mem_restRefs_of main_arg1 (by decide) (by decide))).trans (atExit_arg1 m dats c),
      ((h c).2 main_arg2 (Pipeline.mem_restRefs_of main_arg2 (by decide) (by decide))).trans (atExit_arg2 m dats c),
      ((h c).2 main_arg3 (Pipeline.mem_restRefs_of main_arg3 (by decide) (by decide))).trans (atExit_arg3 m dats c),
      ((h c).2 main_arg4 (Pipeline.mem_restRefs_of main_arg4 (by decide) (by decide))).trans (atExit_arg4 m dats c),
      ((h c).2 main_arg5 (Pipeline.mem_restRefs_of main_arg5 (by decide) (by decide))).trans (atExit_arg5 m dats c),
      ((h c).2 main_arg6 (Pipeline.mem_restRefs_of main_arg6 (by decide) (by decide))).trans (atExit_arg6 m dats c),
      ((h c).2 main_arg7 (Pipeline.mem_restRefs_of main_arg7 (by decide) (by decide))).trans (atExit_arg7 m dats c)⟩) h

/-! ## The body's two branch conditions -/

/-- The accumulator is reset where the hidden-block coordinate is 0. -/
abbrev atFirstK (i : grid0.Coords) : Prop := (Scalar.cmpi .ne (Scalar.extui (Scalar.cmpi .eq (BitVec.ofNat 32 (i 1).val) 0#32)) 0#32) = 1#1
/-- Those are the points ≡ 0 (mod 8). -/
theorem atFirstK_iff : ∀ t : Fin cfg0.N, atFirstK (grid0.coords t) ↔ t.val % 8 = 0 :=
  (by decide +kernel : ∀ t : Fin grid0.N, atFirstK (grid0.coords t) ↔ t.val % 8 = 0)

/-- The output block is stored where the hidden-block coordinate is 7. -/
abbrev atLastK (i : grid0.Coords) : Prop := k0_cond2 i = 1#1
/-- Those are the points ≡ 7 (mod 8). -/
theorem atLastK_iff : ∀ t : Fin cfg0.N, atLastK (grid0.coords t) ↔ t.val % 8 = 7 :=
  (by decide +kernel : ∀ t : Fin grid0.N, atLastK (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last hidden block the output window is idle: the body stores nothing into it, -/
theorem idle5 : ∀ t : Fin cfg0.N, ¬atLastK (grid0.coords t) → cfg0.idle 5 (grid0.coords t) = true := by decide +kernel
/-- and the pipeline does not write its block back. -/
theorem noFlush5 : ∀ t : Fin cfg0.N, ¬atLastK (grid0.coords t) → (cfg0.win 5).flush t = false := by decide +kernel
/-- At the last hidden block it is live. -/
theorem live5 : ∀ t : Fin cfg0.N, atLastK (grid0.coords t) → cfg0.idle 5 (grid0.coords t) = false := by decide +kernel

/-! ## The staging memrefs and the accumulator -/

/-- One staging buffer of the output window, through which its contents are stated. -/
abbrev outView : View sig .tc .vmem S512x1024 .f32 := (Memref.whole cc0_stg5_0 : Memref sig .tc .vmem S512x1024 .f32).view
abbrev buf0 (t : Fin cfg0.N) : Memref sig .tc .vmem S512x4608 .bf16 := win0_0.stage (cfg0.slots t 0)
abbrev wh0 (t : Fin cfg0.N) : (buf0 t).IsWhole := hstage0_0 ((cfg0.slots t 0).cast nbuf0_0)
abbrev buf1 (t : Fin cfg0.N) : Memref sig .tc .vmem S4608x512 .bf16 := win0_1.stage (cfg0.slots t 1)
abbrev wh1 (t : Fin cfg0.N) : (buf1 t).IsWhole := hstage0_1 ((cfg0.slots t 1).cast nbuf0_1)
abbrev buf2 (t : Fin cfg0.N) : Memref sig .tc .vmem S1x512 .f32 := win0_2.stage (cfg0.slots t 2)
abbrev wh2 (t : Fin cfg0.N) : (buf2 t).IsWhole := hstage0_2 ((cfg0.slots t 2).cast nbuf0_2)
abbrev buf3 (t : Fin cfg0.N) : Memref sig .tc .vmem S512x1024 .bf16 := win0_3.stage (cfg0.slots t 3)
abbrev wh3 (t : Fin cfg0.N) : (buf3 t).IsWhole := hstage0_3 ((cfg0.slots t 3).cast nbuf0_3)
abbrev buf4 (t : Fin cfg0.N) : Memref sig .tc .vmem S1x1024 .f32 := win0_4.stage (cfg0.slots t 4)
abbrev wh4 (t : Fin cfg0.N) : (buf4 t).IsWhole := hstage0_4 ((cfg0.slots t 4).cast nbuf0_4)
abbrev buf5 (t : Fin cfg0.N) : Memref sig .tc .vmem S512x1024 .f32 := win0_5.stage (cfg0.slots t 5)
abbrev wh5 (t : Fin cfg0.N) : (buf5 t).IsWhole := hstage0_5 ((cfg0.slots t 5).cast nbuf0_5)
/-- The accumulator: a whole scoped buffer of the kernel's own, carried between points. -/
abbrev accM : Memref sig .tc .vmem S512x1024 .f32 := Memref.whole cc0_scratch0
abbrev accView : View sig .tc .vmem S512x1024 .f32 := accM.view

/-- The region's invariant with the accumulator as a memref owned at some contents. -/
theorem invA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Fr

end
-- ==== Proof.KI.RunFirst.lean ====
import proofs.«113232_j56367150792892_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the hidden-block coordinate is 0: on whole staging memrefs holding the five input blocks, the output's buffer at contents handed back untouched, and the accumulator at anything, the body runs to its end with the inputs as they were and the accumulator written piece by piece (the reset, then the first product added to it); the pieces are what the run finds. -/
noncomputable def runFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) :
    Σ' (L5 : List (View.Piece (Elt F) S512x1024 .f32)), { LS : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg2 harg2 arg3 harg3 arg4 harg4 arg5 harg5 arg6 harg6 arg7 harg7 arg8 harg8) K } := by
  refine ⟨[], ?_, fun xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Fr

end
-- ==== Proof.KI.RunMid.lean ====
import proofs.«113232_j56367150792892_1_alg».proof.Proof.KI.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the hidden-block coordinate is neither 0 nor 7: the accumulator comes in at what the point before left and goes out with this block's product added. -/
noncomputable def runMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) :
    Σ' (L5 : List (View.Piece (Elt F) S512x1024 .f32)), { LS : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg2 harg2 arg3 harg3 arg4 harg4 arg5 harg5 arg6 harg6 arg7 harg7 arg8 harg8) K } := by
  refine ⟨[], ?_, fun xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Fr

end
-- ==== Proof.KI.RunLast.lean ====
import proofs.«113232_j56367150792892_1_alg».proof.Proof.KI.RunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the hidden-block coordinate is 7: the accumulator comes in at what the point before left, the last product is added, and the output's buffer, taken at anything, is stored whole with the accumulator plus the second bias. -/
noncomputable def runLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) :
    Σ' (L5 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg2 harg2 arg3 harg3 arg4 harg4 arg5 harg5 arg6 harg6 arg7 harg7 arg8 harg8) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Fr

end
-- ==== Proof.KI.Frame.lean ====
import proofs.«113232_j56367150792892_1_alg».proof.Proof.KI.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the accumulator covers it. -/
theorem accCoverFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) (y : S512x1024.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S512x1024.size (by sl_kernel_rfl) y

/-- What this case leaves in the accumulator: its pieces read back. -/
def accAfterFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) : Vec F S512x1024 .f32 :=
  accView.read (Elt F) (accView.writes (Elt F) accView.junk (runFirst c i arg2 harg2 arg3 harg3 arg4 harg4 arg5 harg5 arg6 harg6 arg7 harg7 arg8 harg8 hc0 hc1 x0 x1 x2 x3 x4).2.1)

/-- What this case leaves in the output's staging buffer: its pieces read back (none where the window is idle: a
    placeholder nothing consults). -/
def outAfterFirst (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) : Vec F S512x1024 .f32 :=
  outView.read (Elt F) (outView.writes (Elt F) outView.junk (runFirst c i arg2 harg2 arg3 harg3 arg4 harg4 arg5 harg5 arg6 harg6 arg7 harg7 arg8 harg8 hc0 hc1 x0 x1 x2 x3 x4).1)

/-- What this case leaves in the accumulator covers it. -/
theorem accCoverMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) (y : S512x1024.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S512x1024.size (by sl_kernel_rfl) y

/-- What this case leaves in the accumulator: its pieces read back. -/
def accAfterMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  accView.read (Elt F) (accView.writes (Elt F) accView.junk (runMid c i arg2 harg2 arg3 harg3 arg4 harg4 arg5 harg5 arg6 harg6 arg7 harg7 arg8 harg8 hc0 hc1 x0 x1 x2 x3 x4 xs).2.1)

/-- What this case leaves in the output's staging buffer: its pieces read back (none where the window is idle: a
    placeholder nothing consults). -/
def outAfterMid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  outView.read (Elt F) (outView.writes (Elt F) outView.junk (runMid c i arg2 harg2 arg3 harg3 arg4 harg4 arg5 harg5 arg6 harg6 arg7 harg7 arg8 harg8 hc0 hc1 x0 x1 x2 x3 x4 xs).1)

/-- What this case leaves in the accumulator covers it. -/
theorem accCoverLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) (y : S512x1024.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S512x1024.size (by sl_kernel_rfl) y

/-- What this case leaves in the accumulator: its pieces read back. -/
def accAfterLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  accView.read (Elt F) (accView.writes (Elt F) accView.junk (runLast c i arg2 harg2 arg3 harg3 arg4 harg4 arg5 harg5 arg6 harg6 arg7 harg7 arg8 harg8 hc0 hc1 x0 x1 x2 x3 x4 xs).2.1)

/-- What this case leaves in the output's staging buffer: its pieces read back (none where the window is idle: a
    placeholder nothing consults). -/
def outAfterLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) : Vec F S512x1024 .f32 :=
  outView.read (Elt F) (outView.writes (Elt F) outView.junk (runLast c i arg2 harg2 arg3 harg3 arg4 harg4 arg5 harg5 arg6 harg6 arg7 harg7 arg8 harg8 hc0 hc1 x0 x1 x2 x3 x4 xs).1)

/-- At the last hidden block the store into the output's buffer covers it. -/
theorem outCoverLast (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) (y : S512x1024.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S512x1024.size (by sl_kernel_rfl) y

/-! ## What the output's buffer and the accumulator hold after each point -/

/-- After the body at position `n`: the output's staging buffer and the accumulator, by recursion on the point — the
    case the hidden-block coordinate selects, run at the point's memrefs and input blocks, the accumulator coming in
    at what the point before left. -/
def heldAfter (c : Dev nD) : (n : ℕ) → n < cfg0.N → Vec F S512x1024 .f32 × Vec F S512x1024 .f32
  | 0, hn => (outAfterFirst c (grid0.coords ⟨0, hn⟩) (buf0 ⟨0, hn⟩) (wh0 ⟨0, hn⟩) (buf1 ⟨0, hn⟩) (wh1 ⟨0, hn⟩) (buf2 ⟨0, hn⟩) (wh2 ⟨0, hn⟩) (buf3 ⟨0, hn⟩) (wh3 ⟨0, hn⟩) (buf4 ⟨0, hn⟩) (wh4 ⟨0, hn⟩) (buf5 ⟨0, hn⟩) (wh5 ⟨0, hn⟩) accM (Memref.isWhole_whole _) ((atFirstK_iff ⟨0, hn⟩).mpr (Nat.zero_mod _)) (fun h => (fun h => by (try dsimp only at h); omega) ((atLastK_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩), accAfterFirst c (grid0.coords ⟨0, hn⟩) (buf0 ⟨0, hn⟩) (wh0 ⟨0, hn⟩) (buf1 ⟨0, hn⟩) (wh1 ⟨0, hn⟩) (buf2 ⟨0, hn⟩) (wh2 ⟨0, hn⟩) (buf3 ⟨0, hn⟩) (wh3 ⟨0, hn⟩) (buf4 ⟨0, hn⟩) (wh4 ⟨0, hn⟩) (buf5 ⟨0, hn⟩) (wh5 ⟨0, hn⟩) accM (Memref.isWhole_whole _) ((atFirstK_iff ⟨0, hn⟩).mpr (Nat.zero_mod _)) (fun h => (fun h => by (try dsimp only at h); omega) ((atLastK_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩))
  | n + 1, hn =>
    if h0 : (n + 1) % 8 = 0 then
      if h1 : (n + 1) % 8 = 7 then
        False.elim (by omega)
      else
        (outAfterFirst c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) ((atFirstK_iff ⟨n + 1, hn⟩).mpr h0) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩), accAfterFirst c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) ((atFirstK_iff ⟨n + 1, hn⟩).mpr h0) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩))
    else
      if h1 : (n + 1) % 8 = 7 then
        (outAfterLast c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) ((atLastK_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2, accAfterLast c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) ((atLastK_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2)
      else
        (outAfterMid c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2, accAfterMid c (grid0.coords ⟨n + 1, hn⟩) (buf0 ⟨n + 1, hn⟩) (wh0 ⟨n + 1, hn⟩) (buf1 ⟨n + 1, hn⟩) (wh1 ⟨n + 1, hn⟩) (buf2 ⟨n + 1, hn⟩) (wh2 ⟨n + 1, hn⟩) (buf3 ⟨n + 1, hn⟩) (wh3 ⟨n + 1, hn⟩) (buf4 ⟨n + 1, hn⟩) (wh4 ⟨n + 1, hn⟩) (buf5 ⟨n + 1, hn⟩) (wh5 ⟨n + 1, hn⟩) accM (Memref.isWhole_whole _) (fun h => h0 ((atFirstK_iff ⟨n + 1, hn⟩).mp h)) (fun h => h1 ((atLastK_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (heldAfter c n (Nat.lt_of_succ_lt hn)).2)

theorem heldAfter_first (c : Dev nD) (t : Fin cfg0.N) (h0 : t.val % 8 = 0) (h1 : ¬t.val % 8 = 7) :
    heldAfter m c t.val t.isLt = (outAfterFirst c (grid0.coords t) (buf0 t) (wh0 t) (buf1 t) (wh1 t) (buf2 t) (wh2 t) (buf3 t) (wh3 t) (buf4 t) (wh4 t) (buf5 t) (wh5 t) accM (Memref.isWhole_whole _) ((atFirstK_iff t).mpr h0) (fun h => h1 ((atLastK_iff t).mp h)) (blockAt m c 0 t) (blockAt m c 1 t) (blockAt m c 2 t) (blockAt m c 3 t) (blockAt m c 4 t), accAfterFirst c (grid0.coords t) (buf0 t) (wh0 t) (buf1 t) (wh1 t) (buf2 t) (wh2 t) (buf3 t) (wh3 t) (buf4 t) (wh4 t) (buf5 t) (wh5 t) accM (Memref.isWhole_whole _) ((atFirstK_iff t).mpr h0) (fun h => h1 ((atLastK_iff t).mp h)) (blockAt m c 0 t) (blockAt m c 1 t) (blockAt m c 2 t) (blockAt m c 3 t) (blockAt m c 4 t)) := by
  obtain ⟨n, hn⟩ := t
  cases n with
  | zero => exact rfl
  | succ n => exact (dif_pos h0).trans ((dif_neg h1).trans rfl)

theorem heldAfter_mid (c : Dev nD) (t : Fin cfg0.N) (h0 : ¬t.val % 8 = 0) (h1 : ¬t.val % 8 = 7) :
    heldAfter m c t.val t.isLt = (outAfterMid c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) (fun h => h1 ((atLastK_iff t).mp h)) (blockAt m c 0 t) (blockAt m c 1 t) (blockAt m c 2 t) (blockAt m c 3 t) (blockAt m c 4 t) (heldAfter m c (t.val - 1) (Nat.lt_of_le_of_lt (Nat.sub_le _ _) t.isLt)).2, accAfterMid c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) (fun h => h1 ((atLastK_iff t).mp h)) (blockAt m c 0 t) (blockAt m c 1 t) (blockAt m c 2 t) (blockAt m c 3 t) (blockAt m c 4 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem heldAfter_last (c : Dev nD) (t : Fin cfg0.N) (h0 : ¬t.val % 8 = 0) (h1 : t.val % 8 = 7) :
    heldAfter m c t.val t.isLt = (outAfterLast c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) ((atLastK_iff t).mpr h1) (blockAt m c 0 t) (blockAt m c 1 t) (blockAt m c 2 t) (blockAt m c 3 t) (blockAt m c 4 t) (heldAfter m c (t.val - 1) (Nat.lt_of_le_of_lt (Nat.sub_le _ _) t.isLt)).2, accAfterLast c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) ((atLastK_iff t).mpr h1) (blockAt m c 0 t) (blockAt m c 1 t) (blockAt m c 2 t) (blockAt m c 3 t) (blockAt m c 4 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, and the generator register at some state. -/
def accInv (c : Dev nD) : (n : ℕ) → n ≤ cfg0.N → sProp 𝕄
  | 0, _ => Pipeline.ΦA spec0 c
  | n + 1, hn => iprop(iprop(owns (c : Thread nD τ) accM fullShare ((heldAfter m c n hn).2)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare ((heldAfter m c n hn).2)) ∗ (∃ r, prngReg c r)) := rfl

theorem accInv_pos (c : Dev nD) (n : ℕ) (h : n ≤ cfg0.N) (hz : n ≠ 0) :
    accInv m c n h = iprop(iprop(owns (c : Thread nD τ) accM fullShare ((heldAfter m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `heldAfter`; the invariant `accInv`; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => (heldAfter m c t.val t.isLt).1
  Φ t := accInv m c t.val (Nat.le_of_lt_succ t.isLt)
  q _ := fullShare
  owed _ := 0

theorem pdata_A (c : Dev nD) (w : Fin cfg0.W) : (pdata m 0 c).A w = atEntry m c (Pipeline.arrRef spec0 w) := by
  dsimp only [pdata]

theorem accInv_castSucc (c : Dev nD) (t : Fin cfg0.N) :
    (pdata m 0 c).Φ t.castSucc = accInv m c t.val (Nat.le_of_lt t.isLt) := by
  dsimp only [pdata]; simp only [Fin.coe_castSucc]

theorem after0 (c : Dev nD) (t : Fin cfg0.N) : (pdata m 0 c).after 0 t = blockAt m c 0 t := by dsimp only [pdata]
theorem after1 (c : Dev nD) (t : Fin cfg0.N) : (pdata m 0 c).after 1 t = blockAt m c 1 t := by dsimp only [pdata]
theorem after2 (c : Dev nD) (t : Fin cfg0.N) : (pdata m 0 c).after 2 t = blockAt m c 2 t := by dsimp only [pdata]
theorem after3 (c : Dev nD) (t : Fin cfg0.N) : (pdata m 0 c).after 3 t = blockAt m c 3 t := by dsimp only [pdata]
theorem after4 (c : Dev nD) (t : Fin cfg0.N) : (pdata m 0 c).after 4 t = blockAt m c 4 t := by dsimp only [pdata]
theorem after5 (c : Dev nD) (t : Fin cfg0.N) : (pdata m 0 c).after 5 t = (heldAfter m c t.val t.isLt).1 := by dsimp only [pdata]

theorem found0 (c : Dev nD) (t : Fin cfg0.N) (d) : (pdata m 0 c).before 0 t d = blockAt m c 0 t :=
  found0_of m (pdata m 0 c) (pdata_A m c 0) (after0 m c) t d
theorem found1 (c : Dev nD) (t : Fin cfg0.N) (d) : (pdata m 0 c).before 1 t d = blockAt m c 1 t :=
  found1_of m (pdata m 0 c) (pdata_A m c 1) (after1 m c) t d
theorem found2 (c : Dev nD) (t : Fin cfg0.N) (d) : (pdata m 0 c).before 2 t d = blockAt m c 2 t :=
  found2_of m (pdata m 0 c) (pdata_A m c 2) (after2 m c) t d
theorem found3 (c : Dev nD) (t : Fin cfg0.N) (d) : (pdata m 0 c).before 3 t d = blockAt m c 3 t :=
  found3_of m (pdata m 0 c) (pdata_A m c 3) (after3 m c) t d
theorem found4 (c : Dev nD) (t : Fin cfg0.N) (d) : (pdata m 0 c).before 4 t d = blockAt m c 4 t :=
  found4_of m (pdata m 0 c) (pdata_A m c 4) (after4 m c) t d

/-! ## The body obligation, at a generic point -/

def bodyPre (c : Dev nD) (t : Fin cfg0.N) : sProp 𝕄 :=
  iprop((pdata m 0 c).Φ t.castSucc ∗ (pdata m 0 c).owesAt () t.castSucc
    ∗ (∃ d, owns (c : Thread nD τ) (buf0 t) fullShare ((pdata m 0 c).before 0 t d))
    ∗ (∃ d, owns (c : Thread nD τ) (buf1 t) fullShare ((pdata m 0 c).before 1 t d))
    ∗ (∃ d, owns (c : Thread nD τ) (buf2 t) fullShare ((pdata m 0 c).before 2 t d))
    ∗ (∃ d, owns (c : Thread nD τ) (buf3 t) fullShare ((pdata m 0 c).before 3 t d))
    ∗ (∃ d, owns (c : Thread nD τ) (buf4 t) fullShare ((pdata m 0 c).before 4 t d))
    ∗ (∃ d, owns (c : Thread nD τ) (buf5 t) fullShare ((pdata m 0 c).before 5 t d)))

def bodyPost (c : Dev nD) (t : Fin cfg0.N) : sProp 𝕄 :=
  iprop((pdata m 0 c).Φ t.succ ∗ (pdata m 0 c).owesAt () t.succ
    ∗ (pdata m 0 c).leavesExact 0 t
    ∗ (pdata m 0 c).leavesExact 1 t
    ∗ (pdata m 0 c).leavesExact 2 t
    ∗ (pdata m 0 c).leavesExact 3 t
    ∗ (pdata m 0 c).leavesExact 4 t
    ∗ (pdata m 0 c).leavesExact 5 t)

set_option maxHeartbeats 8000000 in
/-- The body at any point: the inputs' memrefs hold their blocks; the hidden-block coordinate says which case the
    point is in; the invariant hands the body the accumulator at what the point before left (at anything at the very
    first point, and forgotten where the accumulator is reset) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4]
  rw [show (pdata m 0 c).owesAt () t.succ = (pdata m 0 c).owesAt () t.castSucc from rfl]
  rw [show (pdata m 0 c).Φ t.succ = accInv m c (t.val + 1) t.isLt from rfl, accInv_succ]
  have hN : t.val < 64 := lt_of_lt_of_eq t.isLt (show cfg0.N = 64 from N_0)
  rw [show (pdata m 0 c).leavesExact 0 t = owns (c : Thread nD τ) (buf0 t) fullShare ((pdata m 0 c).after 0 t) from by
    unfold Dat.leavesExact; rw [live0 t], after0]
  rw [show (pdata m 0 c).leavesExact 1 t = owns (c : Thread nD τ) (buf1 t) fullShare ((pdata m 0 c).after 1 t) from by
    unfold Dat.leavesExact; rw [live1 t], after1]
  rw [show (pdata m 0 c).leavesExact 2 t = owns (c : Thread nD τ) (buf2 t) fullShare ((pdata m 0 c).after 2 t) from by
    unfold Dat.leavesExact; rw [live2 t], after2]
  rw [show (pdata m 0 c).leavesExact 3 t = owns (c : Thread nD τ) (buf3 t) fullShare ((pdata m 0 c).after 3 t) from by
    unfold Dat.leavesExact; rw [live3 t], after3]
  rw [show (pdata m 0 c).leavesExact 4 t = owns (c : Thread nD τ) (buf4 t) fullShare ((pdata m 0 c).after 4 t) from by
    unfold Dat.leavesExact; rw [live4 t], after4]
  by_cases h0 : t.val % 8 = 0
  · have h1 : ¬t.val % 8 = 7 := by omega
    rw [Dat.leavesExact_idle (pdata m 0 c) 5 t (idle5 t (fun h => h1 ((atLastK_iff t).mp h))) (noFlush5 t (fun h => h1 ((atLastK_iff t).mp h)))]
    rw [heldAfter_first m c t h0 h1]
    unfold accAfterFirst; (try dsimp only)
    by_cases hz : t.val = 0
    · rw [accInv_castSucc m c t, accInv_zero m c _ _ hz, invA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((atFirstK_iff t).mpr h0) (fun h => h1 ((atLastK_iff t).mp h)) (blockAt m c 0 t) (blockAt m c 1 t) (blockAt m c 2 t) (blockAt m c 3 t) (blockAt m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((atFirstK_iff t).mpr h0) (fun h => h1 ((atLastK_iff t).mp h)) (blockAt m c 0 t) (blockAt m c 1 t) (blockAt m c 2 t) (blockAt m c 3 t) (blockAt m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 8 = 7
    · rw [show (pdata m 0 c).leavesExact 5 t = owns (c : Thread nD τ) (buf5 t) fullShare ((pdata m 0 c).after 5 t) from by
        unfold Dat.leavesExact; rw [live5 t ((atLastK_iff t).mpr h1)], after5]
      rw [heldAfter_last m c t h0 h1]
      unfold outAfterLast accAfterLast; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((atFirstK_iff t).mp h)) ((atLastK_iff t).mpr h1) (blockAt m c 0 t) (blockAt m c 1 t) (blockAt m c 2 t) (blockAt m c 3 t) (blockAt m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [Dat.leavesExact_idle (pdata m 0 c) 5 t (idle5 t (fun h => h1 ((atLastK_iff t).mp h))) (noFlush5 t (fun h => h1 ((atLastK_iff t).mp h)))]
      rw [heldAfter_mid m c t h0 h1]
      unfold accAfterMid; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((atFirstK_iff t).mp h)) (fun h => h1 ((atLastK_iff t).mp h)) (blockAt m c 0 t) (blockAt m c 1 t) (blockAt m c 2 t) (blockAt m c 3 t) (blockAt m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (accCoverMid c _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (pdata (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (pdata m 0 c).Φ 0 := by
  rw [show (pdata m 0 c).Φ 0 = accInv m c 0 (Nat.zero_le _) from rfl, accInv_zero m c 0 _ rfl]
  try exact Idealize.SL.BI.Entails.refl _

/-- After any point but the first the invariant gives the class's back: the accumulator's named contents are forgotten. -/
theorem inv_forget (c : Dev nD) (t : Fin (cfg0.N + 1)) (ht : t.val ≠ 0) : (pdata m 0 c).Φ t ⊢ Pipeline.ΦA spec0 c := by
  rw [show (pdata m 0 c).Φ t = accInv m c t.val (Nat.le_of_lt_succ t.isLt) from rfl, accInv_pos m c _ _ ht, invA_eq]
  iintro ⟨HS, Hg⟩
  isplitl [HS]
  · iexists _; iexact HS
  iexact Hg

theorem inv_out (c : Dev nD) : (pdata m 0 c).Φ (Fin.last cfg0.N) ⊢ Pipeline.ΦA spec0 c :=
  inv_forget m c _ (by rw [Fin.val_last]; have : cfg0.N = 64 := N_0; omega)

/-! ## The run and the frame -/

set_option backward.isDefEq.respectTransparency.types false in
/-- From any memory with zero counters every weakly fair execution of the program on the TensorCores terminates, and
    every final state has every array of the pipeline at what the library computes from the proof data and every other
    unscoped buffer as the lines after the region leave it. -/
theorem run_main : θ_run defs (onTc (τ := τ) (main (F := F))) (s₀ m ρ) (Pipeline.FramePost cfgs (pdata m) 0 (Pipeline.afterTail₀ cfgs (pdata m) 0 (atEntry0 m) [hostOps1])) :=
  Pipeline.θ_run_frame_around_track cfgs (pdata m) (0 : Fin 1) launch0 defs₀ Variants.none m ρ main
    (hbody := fun c => (body_obligation m c).loose) (hshare := fun c => (pdata m 0 c).share_full fun _ => rfl)
    (howed := fun _ _ => rfl) (V₀ := atEntry0 m) (opss := [hostOps1]) (hsub := tail_sub) (hfresh := tail_fresh) (hkeep := tail_keeps)
    (hmain := mainAround m Variants.none) (hA := pdata_A m) (hin := inv_in m) (hout := inv_out m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (pdata m) (pdata_A m) (run_main m ρ)

end Cert.KernelIdeal.Fr

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Spec.lean ====
/-
  The mathematics of the two-layer perceptron both programs compute, over the extended reals, with no program in sight.
  A row `r` of the feature matrix `X` (4096 rows of 4608 features) gives 4096 hidden activations
  `max (∑ d, X r d · W1 d k + b1 k) 0`, and output entry `(r, l)` is `∑ k, hidden r k · W2 k l + b2 l`.
  One program takes the sum over the 4096 hidden units whole; the other cuts them into 8 blocks of 512, starts from 0,
  adds one block's sum at a time, and adds the bias last. In the extended reals addition is commutative and associative
  and 0 is neutral, so the two agree: no distributivity is used, hence no finiteness.
-/
import Idealize.ShloMosaic.PureOps.Ideal
import Idealize.ShloMosaic.Lib.ValueIdx
import proofs.«113232_j56367150792892_1_alg».proof.Proof.LibSumBlocks

noncomputable section

namespace Cert.Mlp

open Idealize.ShloMosaic Idealize.ShloMosaic.ValueIdx
open scoped BigOperators

abbrev SRows : Shape := ⟨2, ![4096, 4608]⟩
abbrev SW1 : Shape := ⟨2, ![4608, 4096]⟩
abbrev SB1 : Shape := ⟨2, ![1, 4096]⟩
abbrev SW2 : Shape := ⟨2, ![4096, 1024]⟩
abbrev SB2 : Shape := ⟨2, ![1, 1024]⟩
abbrev SOut : Shape := ⟨2, ![4096, 1024]⟩

variable (X : SRows.Idx → EReal) (W1 : SW1.Idx → EReal) (B1 : SB1.Idx → EReal) (W2 : SW2.Idx → EReal) (B2 : SB2.Idx → EReal)

/-- Hidden unit `k` of row `r`: the rectified first layer. -/
def hidden (r : Fin 4096) (k : Fin 4096) : EReal :=
  max ((∑ d : Fin 4608, X (ix2 r d) * W1 (ix2 d k)) + B1 (ix2 0 k)) 0

/-- The second layer's sum over the 512 hidden units of block `j`. -/
def blockSum (j : Fin 8) (r : Fin 4096) (l : Fin 1024) : EReal :=
  ∑ k' : Fin 512, hidden X W1 B1 r ⟨512 * j.val + k'.val, LibSumBlocks.block_lt (A := 8) (B := 512) (N := 4096) rfl j k'⟩
    * W2 (ix2 ⟨512 * j.val + k'.val, LibSumBlocks.block_lt (A := 8) (B := 512) (N := 4096) rfl j k'⟩ l)

/-- The accumulator after hidden blocks `0 … n`: reset to zero, then one block's sum added at a time. -/
def accUpTo : (n : ℕ) → n < 8 → Fin 4096 → Fin 1024 → EReal
  | 0, h => fun r l => 0 + blockSum X W1 B1 W2 ⟨0, h⟩ r l
  | n + 1, h => fun r l => accUpTo n (Nat.lt_of_succ_lt h) r l + blockSum X W1 B1 W2 ⟨n + 1, h⟩ r l

theorem accUpTo_zero (h : 0 < 8) (r : Fin 4096) (l : Fin 1024) :
    accUpTo X W1 B1 W2 0 h r l = 0 + blockSum X W1 B1 W2 ⟨0, h⟩ r l := rfl

theorem accUpTo_succ (n : ℕ) (h : n + 1 < 8) (r : Fin 4096) (l : Fin 1024) :
    accUpTo X W1 B1 W2 (n + 1) h r l = accUpTo X W1 B1 W2 n (Nat.lt_of_succ_lt h) r l + blockSum X W1 B1 W2 ⟨n + 1, h⟩ r l := rfl

/-- Output entry `(r, l)` as the blocked program leaves it: the accumulator after the last block, plus the bias. -/
def mlpOut (r : Fin 4096) (l : Fin 1024) : EReal :=
  accUpTo X W1 B1 W2 7 (by decide) r l + B2 (ix2 0 l)

/-- The accumulator after blocks `0 … n` is the sum of those blocks' sums. -/
theorem accUpTo_eq_sum (n : ℕ) (h : n < 8) (r : Fin 4096) (l : Fin 1024) :
    accUpTo X W1 B1 W2 n h r l = ∑ j ∈ Finset.range (n + 1), if hj : j < 8 then blockSum X W1 B1 W2 ⟨j, hj⟩ r l else 0 := by
  induction n with
  | zero => rw [accUpTo_zero, zero_add, Finset.sum_range_one, dif_pos h]
  | succ n ih => rw [accUpTo_succ, ih, Finset.sum_range_succ _ (n + 1), dif_pos h]

/-- The blocked output is the whole sum over the 4096 hidden units, plus the bias. -/
theorem mlpOut_eq (r : Fin 4096) (l : Fin 1024) :
    mlpOut X W1 B1 W2 B2 r l = (∑ k : Fin 4096, hidden X W1 B1 r k * W2 (ix2 k l)) + B2 (ix2 0 l) := by
  unfold mlpOut
  rw [accUpTo_eq_sum, ← LibSumBlocks.sum_blocks (A := 8) (B := 512) (N := 4096) rfl (fun k => hidden X W1 B1 r k * W2 (ix2 k l))]
  congr 1

end Cert.Mlp

end
-- ==== Proof.KValue.lean ====
/-
  What the kernel's region leaves in its result array, at the ideal instance: entry `(r, l)` is the blocked
  perceptron output of row `r` of the feature matrix the region finds — the accumulator reset at hidden block 0, one
  block's sum added at each of the eight hidden blocks, the second bias added at the last.
-/
import proofs.«113232_j56367150792892_1_alg».proof.Proof.KI.Frame
import proofs.«113232_j56367150792892_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Fr Idealize.ShloMosaic.ValueIdx

variable {F : FTy → Type} [FloatOps F]

theorem hz : (![0, 0] : Fin 2 → Nat) = fun _ => 0 := funext fun a => by fin_cases a <;> rfl

/-! ## What each case's stores leave, as the body's arithmetic -/

/-- At hidden block 0 the accumulator ends at the first product added to the reset. -/
theorem acc_first (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : atFirstK i) (hc1 : ¬atLastK i)
    (x0 : Vec F S512x4608 .bf16) (x1 : Vec F S4608x512 .bf16) (x2 : Vec F S1x512 .f32) (x3 : Vec F S512x1024 .bf16) (x4 : Vec F S1x1024 .f32) :
    accAfterFirst c i arg2 harg2 arg3 harg3 arg4 harg4 arg5 harg5 arg6 harg6 arg7 harg7 arg8 harg8 hc0 hc1 x0 x1 x2 x3 x4 = k0_pay2 x0 x1 x2 (k0_pay1 (F := F)) x3 := by
  unfold accAfterFirst
  rw [View.read_writes_eq_canon _ _ _ (accCoverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread, harg6.read_unread, harg7.read_unread, harg8.read_unread, View.ld_unit_zero (S := S512x4608) hz, View.ld_unit_zero (S := S4608x512) hz, View.ld_unit_zero (S := S1x512) hz, View.ld_unit_zero (S := S512x1024) hz, View.ld_unit_zero (S := S1x1024) hz]

/-- At a middle hidden block the accumulator ends at what it held plus this block's product. -/
theorem acc_mid (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : ¬atLastK i)
    (x0 : Vec F S512x4608 .bf16) (x1 : Vec F S4608x512 .bf16) (x2 : Vec F S1x512 .f32) (x3 : Vec F S512x1024 .bf16) (x4 : Vec F S1x1024 .f32) (xs : Vec F S512x1024 .f32) :
    accAfterMid c i arg2 harg2 arg3 harg3 arg4 harg4 arg5 harg5 arg6 harg6 arg7 harg7 arg8 harg8 hc0 hc1 x0 x1 x2 x3 x4 xs = k0_pay2 x0 x1 x2 xs x3 := by
  unfold accAfterMid
  rw [View.read_writes_eq_canon _ _ _ (accCoverMid c i arg2 harg2 arg3 harg3 arg4 harg4 arg5 harg5 arg6 harg6 arg7 harg7 arg8 harg8 hc0 hc1 x0 x1 x2 x3 x4 xs)]
  unfold runMid
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4608) hz, View.ld_unit_zero (S := S4608x512) hz, View.ld_unit_zero (S := S1x512) hz, View.ld_unit_zero (S := S512x1024) hz, View.ld_unit_zero (S := S1x1024) hz]

/-- At the last hidden block likewise, -/
theorem acc_last (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) :
    accAfterLast c i arg2 harg2 arg3 harg3 arg4 harg4 arg5 harg5 arg6 harg6 arg7 harg7 arg8 harg8 hc0 hc1 x0 x1 x2 x3 x4 xs = k0_pay2 x0 x1 x2 xs x3 := by
  unfold accAfterLast
  rw [View.read_writes_eq_canon _ _ _ (accCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4608) hz, View.ld_unit_zero (S := S4608x512) hz, View.ld_unit_zero (S := S1x512) hz, View.ld_unit_zero (S := S512x1024) hz, View.ld_unit_zero (S := S1x1024) hz]

/-- and the output's buffer ends at that accumulator plus the second bias. -/
theorem out_last (c : Dev nD) (i : grid0.Coords) (arg2 : Memref sig .tc .vmem S512x4608 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬atFirstK i) (hc1 : atLastK i)
    (x0 : Vec F S512x4608 .bf16) (x1 : Vec F S4608x512 .bf16) (x2 : Vec F S1x512 .f32) (x3 : Vec F S512x1024 .bf16) (x4 : Vec F S1x1024 .f32) (xs : Vec F S512x1024 .f32) :
    outAfterLast c i arg2 harg2 arg3 harg3 arg4 harg4 arg5 harg5 arg6 harg6 arg7 harg7 arg8 harg8 hc0 hc1 x0 x1 x2 x3 x4 xs = k0_pay3 (k0_pay2 x0 x1 x2 xs x3) x4 := by
  unfold outAfterLast
  rw [View.read_writes_eq_canon _ _ _ (outCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readCov_unit_zero (S := S512x1024) _ hz, View.readAt_eq_ld, harg2.read_unread, harg3.read_unread, harg4.read_unread, harg5.read_unread, harg6.read_unread, harg7.read_unread, harg8.read_unread, View.ld_unit_zero (S := S512x4608) hz, View.ld_unit_zero (S := S4608x512) hz, View.ld_unit_zero (S := S1x512) hz, View.ld_unit_zero (S := S512x1024) hz, View.ld_unit_zero (S := S1x1024) hz]

/-! ## The body's arithmetic at an entry, on the extended reals -/

theorem lhsA_0 (i : S512x512.Idx) (q : dot_S512x4608_S4608x512_S512x512_1_0_0_1_n_n.contr.Idx) : (dot_S512x4608_S4608x512_S512x512_1_0_0_1_n_n.lhsIdx i q 0).val = (i 0).val := by
  unfold DotDims.lhsIdx
  rw [dif_neg (show ¬(0 : Fin S512x4608.rank) ∈ dot_S512x4608_S4608x512_S512x512_1_0_0_1_n_n.lhsBatch by decide), dif_pos (show (0 : Fin S512x4608.rank) ∈ dot_S512x4608_S4608x512_S512x512_1_0_0_1_n_n.lhsNonContracting by decide)]
  rfl
theorem lhsA_1 (i : S512x512.Idx) (q : dot_S512x4608_S4608x512_S512x512_1_0_0_1_n_n.contr.Idx) : (dot_S512x4608_S4608x512_S512x512_1_0_0_1_n_n.lhsIdx i q 1).val = (q ⟨0, by decide⟩).val :=
  dot_S512x4608_S4608x512_S512x512_1_0_0_1_n_n.lhsIdx_val_of_single rfl i q
theorem rhsA_0 (i : S512x512.Idx) (q : dot_S512x4608_S4608x512_S512x512_1_0_0_1_n_n.contr.Idx) : (dot_S512x4608_S4608x512_S512x512_1_0_0_1_n_n.rhsIdx i q 0).val = (q ⟨0, by decide⟩).val :=
  dot_S512x4608_S4608x512_S512x512_1_0_0_1_n_n.rhsIdx_val_of_single rfl i q
theorem rhsA_1 (i : S512x512.Idx) (q : dot_S512x4608_S4608x512_S512x512_1_0_0_1_n_n.contr.Idx) : (dot_S512x4608_S4608x512_S512x512_1_0_0_1_n_n.rhsIdx i q 1).val = (i 1).val := by
  unfold DotDims.rhsIdx
  rw [dif_neg (show ¬(1 : Fin S4608x512.rank) ∈ dot_S512x4608_S4608x512_S512x512_1_0_0_1_n_n.rhsBatch by decide), dif_pos (show (1 : Fin S4608x512.rank) ∈ dot_S512x4608_S4608x512_S512x512_1_0_0_1_n_n.rhsNonContracting by decide)]
  rfl

/-- The matrix product into a zero accumulator, read at an entry: the sum over the contracted axis. -/
theorem prodA_apply (l : FVec Ideal S512x4608 .bf16) (r : FVec Ideal S4608x512 .bf16) (p : Fin 512) (q : Fin 512) :
    matmul dot_S512x4608_S4608x512_S512x512_1_0_0_1_n_n none l r (constant S512x512 .f32 0x00000000#32) (ix2 p q) = ∑ k : Fin 4608, l (ix2 p k) * r (ix2 k q) := by
  simp only [matmul]
  rw [Ideal.matmul_constant_zero_apply, ← Equiv.sum_comp (ValueIdx.contrEquiv1 dot_S512x4608_S4608x512_S512x512_1_0_0_1_n_n 4608 rfl rfl).symm]
  refine Finset.sum_congr rfl fun k _ => ?_
  have hk := ValueIdx.contrEquiv1_symm_val dot_S512x4608_S4608x512_S512x512_1_0_0_1_n_n 4608 rfl rfl k
  have el : dot_S512x4608_S4608x512_S512x512_1_0_0_1_n_n.lhsIdx (ix2 p q) ((ValueIdx.contrEquiv1 dot_S512x4608_S4608x512_S512x512_1_0_0_1_n_n 4608 rfl rfl).symm k) = ix2 p k := funext fun a => Fin.ext (by
    match a with
    | ⟨0, _⟩ => exact lhsA_0 _ _
    | ⟨1, _⟩ => exact (lhsA_1 _ _).trans hk)
  have er : dot_S512x4608_S4608x512_S512x512_1_0_0_1_n_n.rhsIdx (ix2 p q) ((ValueIdx.contrEquiv1 dot_S512x4608_S4608x512_S512x512_1_0_0_1_n_n 4608 rfl rfl).symm k) = ix2 k q := funext fun a => Fin.ext (by
    match a with
    | ⟨0, _⟩ => exact (rhsA_0 _ _).trans hk
    | ⟨1, _⟩ => exact rhsA_1 _ _)
  rw [el, er]

theorem lhsB_0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhsB_1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem rhsB_0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem rhsB_1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The matrix product into a zero accumulator, read at an entry: the sum over the contracted axis. -/
theorem prodB_apply (l : FVec Ideal S512x512 .bf16) (r : FVec Ideal S512x1024 .bf16) (p : Fin 512) (q : Fin 1024) :
    matmul dot_S512x512_S512x1024_S512x1024_1_0_0_1_n_n none l r (constant S512x1024 .f32 0x00000000#32) (ix2 p q) = ∑ k : Fin 512, l (ix2 p k) * r (ix2 k q) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p q) ((ValueIdx.contrEquiv1 dot_S512x512_S512x1024_S512x1024_1_0_0_1_n_n 512 rfl rfl).symm k) = ix2 p k := funext fun a => Fin.ext (by
    match a with
    | ⟨0, _⟩ => exact lhsB_0 _ _
    | ⟨1, _⟩ => exact (lhsB_1 _ _).trans hk)
  have er : dot_S512x512_S512x1024_S512x1024_1_0_0_1_n_n.rhsIdx (ix2 p q) ((ValueIdx.contrEquiv1 dot_S512x512_S512x1024_S512x1024_1_0_0_1_n_n 512 rfl rfl).symm k) = ix2 k q := funext fun a => Fin.ext (by
    match a with
    | ⟨0, _⟩ => exact (rhsB_0 _ _).trans hk
    | ⟨1, _⟩ => exact rhsB_1 _ _)
  rw [el, er]

/-- A one-row vector broadcast down the rows, read at an entry. -/
theorem rowBcast512_apply (v : FVec Ideal S1x512 .f32) (p : Fin 512) (k : Fin 512) :
    broadcastTo S512x512 v broadcasts_S1x512_S512x512 (ix2 p k) = v (ix2 0 k) := by
  refine broadcastTo_apply v broadcasts_S1x512_S512x512 (ix2 p k) (ix2 0 k) (fun a => ?_)
  match a with
  | ⟨0, _⟩ => rfl
  | ⟨1, _⟩ => rfl
theorem rowBcast1024_apply (v : FVec Ideal S1x1024 .f32) (p : Fin 512) (q : Fin 1024) :
    broadcastTo S512x1024 v broadcasts_S1x1024_S512x1024 (ix2 p q) = v (ix2 0 q) := by
  refine broadcastTo_apply v broadcasts_S1x1024_S512x1024 (ix2 p q) (ix2 0 q) (fun a => ?_)
  match a with
  | ⟨0, _⟩ => rfl
  | ⟨1, _⟩ => rfl

/-- The reset stores zero everywhere. -/
theorem reset_apply (i : S512x1024.Idx) : k0_pay1 (F := Ideal) i = 0 := by
  unfold k0_pay1
  simp only [shapeCast_self]
  exact Ideal.ofBits_zero_f32

/-- One accumulation step at entry `(p, q)`: the accumulator there plus the sum over the block's 512 hidden units of the
    rectified first layer times the second layer's weight. -/
theorem step_apply (x0 : Vec Ideal S512x4608 .bf16) (x1 : Vec Ideal S4608x512 .bf16) (x2 : Vec Ideal S1x512 .f32)
    (acc : Vec Ideal S512x1024 .f32) (x3 : Vec Ideal S512x1024 .bf16) (p : Fin 512) (q : Fin 1024) :
    k0_pay2 (F := Ideal) x0 x1 x2 acc x3 (ix2 p q)
      = acc (ix2 p q) + ∑ k : Fin 512, max ((∑ d : Fin 4608, x0 (ix2 p d) * x1 (ix2 d k)) + x2 (ix2 0 k)) 0 * x3 (ix2 k q) := by
  unfold k0_pay2
  simp only [shapeCast_self]
  refine (addf_apply _ _ _).trans ?_
  refine congrArg (acc (ix2 p q) + ·) ?_
  refine (prodB_apply _ _ p q).trans ?_
  refine Finset.sum_congr rfl fun k _ => ?_
  refine congrArg (· * x3 (ix2 k q)) ?_
  refine (truncf_apply (ψ := .bf16) _ bitsLt_bf16_f32 (ix2 p k)).trans ?_
  refine (maximumf_apply _ _ _).trans ?_
  refine congrArg₂ max ?_ Ideal.ofBits_zero_f32
  refine (addf_apply _ _ _).trans ?_
  exact congrArg₂ (· + ·) (prodA_apply _ _ p k) (rowBcast512_apply _ p k)

/-- The final store at entry `(p, q)`: the accumulator plus the second bias. -/
theorem last_apply (acc : Vec Ideal S512x1024 .f32) (x4 : Vec Ideal S1x1024 .f32) (p : Fin 512) (q : Fin 1024) :
    k0_pay3 (F := Ideal) acc x4 (ix2 p q) = acc (ix2 p q) + x4 (ix2 0 q) := by
  unfold k0_pay3
  simp only [shapeCast_self]
  refine (addf_apply _ _ _).trans ?_
  exact congrArg (acc (ix2 p q) + ·) (rowBcast1024_apply _ p q)

/-! ## The blocks the body reads are blocks of the arrays the region finds -/

section AtIdeal

variable (m : (ℓ : Loc nD τ sig) → Buf (Elt Ideal) ℓ)

/-- The arrays the region finds: the feature rows, the two layers' weights and biases. -/
abbrev rowsIn (c : Dev nD) : Cert.Mlp.SRows.Idx → EReal := atEntry m c main_v21
abbrev w1In (c : Dev nD) : Cert.Mlp.SW1.Idx → EReal := atEntry m c main_v22
abbrev b1In (c : Dev nD) : Cert.Mlp.SB1.Idx → EReal := atEntry m c main_v24
abbrev w2In (c : Dev nD) : Cert.Mlp.SW2.Idx → EReal := atEntry m c main_v23
abbrev b2In (c : Dev nD) : Cert.Mlp.SB2.Idx → EReal := atEntry m c main_v25

/-- Point `t` of the 8 × 8 grid is row block `t / 8`, hidden block `t % 8`. -/
def rowOf (t : Fin cfg0.N) (p : Fin 512) : Fin 4096 :=
  ⟨512 * (t.val / 8) + p.val, by have := t.isLt; have : cfg0.N = 64 := N_0; have := p.isLt; omega⟩
def kOf (t : Fin cfg0.N) : Fin 8 := ⟨t.val % 8, Nat.mod_lt _ (by decide)⟩

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem idx2 : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)
theorem idx3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- The hidden unit `k'` of hidden block `t % 8`. -/
def unitOf (t : Fin cfg0.N) (k : Fin 512) : Fin 4096 :=
  ⟨512 * (kOf t).val + k.val, Cert.LibSumBlocks.block_lt (A := 8) (B := 512) (N := 4096) rfl (kOf t) k⟩

theorem rowsBlock_apply (c : Dev nD) (t : Fin cfg0.N) (p : Fin 512) (d : Fin 4608) :
    (blockAt m c 0 t : S512x4608.Idx → EReal) (ix2 p d) = rowsIn m c (ix2 (rowOf t p) d) := by
  unfold blockAt
  rw [View.read_apply]
  show atEntry m c main_v21 _ = atEntry m c main_v21 _
  congr 1
  funext a
  apply Fin.ext
  match a with
  | ⟨0, _⟩ => show win0_0.index t 0 * 512 + 1 * p.val = 512 * (t.val / 8) + p.val; rw [(idx0 t).1]; omega
  | ⟨1, _⟩ => show win0_0.index t 1 * 4608 + 1 * d.val = d.val; rw [(idx0 t).2]; omega

theorem w1Block_apply (c : Dev nD) (t : Fin cfg0.N) (d : Fin 4608) (k : Fin 512) :
    (blockAt m c 1 t : S4608x512.Idx → EReal) (ix2 d k) = w1In m c (ix2 d (unitOf t k)) := by
  unfold blockAt
  rw [View.read_apply]
  show atEntry m c main_v22 _ = atEntry m c main_v22 _
  congr 1
  funext a
  apply Fin.ext
  match a with
  | ⟨0, _⟩ => show win0_1.index t 0 * 4608 + 1 * d.val = d.val; rw [(idx1 t).1]; omega
  | ⟨1, _⟩ => show win0_1.index t 1 * 512 + 1 * k.val = 512 * (t.val % 8) + k.val; rw [(idx1 t).2]; omega

theorem b1Block_apply (c : Dev nD) (t : Fin cfg0.N) (k : Fin 512) :
    (blockAt m c 2 t : S1x512.Idx → EReal) (ix2 0 k) = b1In m c (ix2 0 (unitOf t k)) := by
  unfold blockAt
  rw [View.read_apply]
  show atEntry m c main_v24 _ = atEntry m c main_v24 _
  congr 1
  funext a
  apply Fin.ext
  match a with
  | ⟨0, _⟩ => show win0_2.index t 0 * 1 + 1 * 0 = 0; rw [(idx2 t).1]
  | ⟨1, _⟩ => show win0_2.index t 1 * 512 + 1 * k.val = 512 * (t.val % 8) + k.val; rw [(idx2 t).2]; omega

theorem w2Block_apply (c : Dev nD) (t : Fin cfg0.N) (k : Fin 512) (q : Fin 1024) :
    (blockAt m c 3 t : S512x1024.Idx → EReal) (ix2 k q) = w2In m c (ix2 (unitOf t k) q) := by
  unfold blockAt
  rw [View.read_apply]
  show atEntry m c main_v23 _ = atEntry m c main_v23 _
  congr 1
  funext a
  apply Fin.ext
  match a with
  | ⟨0, _⟩ => show win0_3.index t 0 * 512 + 1 * k.val = 512 * (t.val % 8) + k.val; rw [(idx3 t).1]; omega
  | ⟨1, _⟩ => show win0_3.index t 1 * 1024 + 1 * q.val = q.val; rw [(idx3 t).2]; omega

theorem b2Block_apply (c : Dev nD) (t : Fin cfg0.N) (q : Fin 1024) :
    (blockAt m c 4 t : S1x1024.Idx → EReal) (ix2 0 q) = b2In m c (ix2 0 q) := by
  unfold blockAt
  rw [View.read_apply]
  show atEntry m c main_v25 _ = atEntry m c main_v25 _
  congr 1
  funext a
  apply Fin.ext
  match a with
  | ⟨0, _⟩ => show win0_4.index t 0 * 1 + 1 * 0 = 0; rw [(idx4 t).1]
  | ⟨1, _⟩ => show win0_4.index t 1 * 1024 + 1 * q.val = q.val; rw [(idx4 t).2]; omega

/-- One accumulation step at point `t`, at entry `(p, q)` of the block: the accumulator plus hidden block `t % 8`'s sum
    for row `512 (t / 8) + p`. -/
theorem step_block (c : Dev nD) (t : Fin cfg0.N) (acc : Vec Ideal S512x1024 .f32) (p : Fin 512) (q : Fin 1024) :
    k0_pay2 (F := Ideal) (blockAt m c 0 t) (blockAt m c 1 t) (blockAt m c 2 t) acc (blockAt m c 3 t) (ix2 p q)
      = acc (ix2 p q) + Cert.Mlp.blockSum (rowsIn m c) (w1In m c) (b1In m c) (w2In m c) (kOf t) (rowOf t p) q := by
  refine (step_apply (blockAt m c 0 t) (blockAt m c 1 t) (blockAt m c 2 t) acc (blockAt m c 3 t) p q).trans ?_
  refine congrArg (acc (ix2 p q) + ·) ?_
  unfold Cert.Mlp.blockSum Cert.Mlp.hidden
  refine Finset.sum_congr rfl fun k _ => ?_
  refine congrArg₂ (· * ·) ?_ (w2Block_apply m c t k q)
  refine congrArg₂ max ?_ rfl
  refine congrArg₂ (· + ·) ?_ (b1Block_apply m c t k)
  refine Finset.sum_congr rfl fun d _ => ?_
  exact congrArg₂ (· * ·) (rowsBlock_apply m c t p d) (w1Block_apply m c t d k)

end AtIdeal

/-! ## The accumulator point by point, and the result array -/

section Run

variable (m : (ℓ : Loc nD τ sig) → Buf (Elt Ideal) ℓ)

theorem accUpTo_congr {X : Cert.Mlp.SRows.Idx → EReal} {W1 : Cert.Mlp.SW1.Idx → EReal} {B1 : Cert.Mlp.SB1.Idx → EReal}
    {W2 : Cert.Mlp.SW2.Idx → EReal} {n n' : ℕ} (e : n = n') (h : n < 8) (h' : n' < 8) (r : Fin 4096) (l : Fin 1024) :
    Cert.Mlp.accUpTo X W1 B1 W2 n h r l = Cert.Mlp.accUpTo X W1 B1 W2 n' h' r l := by
  subst e; rfl

/-- Where the accumulator is reset it ends at zero plus this hidden block's sum. -/
theorem acc_at_first (c : Dev nD) (t : Fin cfg0.N) (h0 : t.val % 8 = 0) (p : Fin 512) (q : Fin 1024) :
    (heldAfter m c t.val t.isLt).2 (ix2 p q)
      = 0 + Cert.Mlp.blockSum (rowsIn m c) (w1In m c) (b1In m c) (w2In m c) (kOf t) (rowOf t p) q := by
  have h1 : ¬t.val % 8 = 7 := by omega
  rw [heldAfter_first m c t h0 h1]
  dsimp only
  refine (congrFun (acc_first (F := Ideal) c (grid0.coords t) (buf0 t) (wh0 t) (buf1 t) (wh1 t) (buf2 t) (wh2 t) (buf3 t) (wh3 t) (buf4 t) (wh4 t) (buf5 t) (wh5 t) accM (Memref.isWhole_whole _) ((atFirstK_iff t).mpr h0) (fun h => h1 ((atLastK_iff t).mp h)) (blockAt m c 0 t) (blockAt m c 1 t) (blockAt m c 2 t) (blockAt m c 3 t) (blockAt m c 4 t)) (ix2 p q)).trans ?_
  refine (step_block m c t _ p q).trans ?_
  rw [reset_apply]

/-- Elsewhere it ends at what the point before left plus this hidden block's sum. -/
theorem acc_at_later (c : Dev nD) (t : Fin cfg0.N) (h0 : ¬t.val % 8 = 0) (p : Fin 512) (q : Fin 1024) :
    (heldAfter m c t.val t.isLt).2 (ix2 p q)
      = (heldAfter m c (t.val - 1) (Nat.lt_of_le_of_lt (Nat.sub_le _ _) t.isLt)).2 (ix2 p q) + Cert.Mlp.blockSum (rowsIn m c) (w1In m c) (b1In m c) (w2In m c) (kOf t) (rowOf t p) q := by
  by_cases h1 : t.val % 8 = 7
  · rw [heldAfter_last m c t h0 h1]
    dsimp only
    refine (congrFun (acc_last (F := Ideal) c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) ((atLastK_iff t).mpr h1) (blockAt m c 0 t) (blockAt m c 1 t) (blockAt m c 2 t) (blockAt m c 3 t) (blockAt m c 4 t) (heldAfter m c (t.val - 1) (Nat.lt_of_le_of_lt (Nat.sub_le _ _) t.isLt)).2) (ix2 p q)).trans ?_
    exact step_block m c t _ p q
  · rw [heldAfter_mid m c t h0 h1]
    dsimp only
    refine (congrFun (acc_mid (F := Ideal) c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) (fun h => h1 ((atLastK_iff t).mp h)) (blockAt m c 0 t) (blockAt m c 1 t) (blockAt m c 2 t) (blockAt m c 3 t) (blockAt m c 4 t) (heldAfter m c (t.val - 1) (Nat.lt_of_le_of_lt (Nat.sub_le _ _) t.isLt)).2) (ix2 p q)).trans ?_
    exact step_block m c t _ p q

/-- After point `n` the accumulator holds, for the point's row block, the sum of hidden blocks `0 … n % 8`. -/
theorem acc_inv (c : Dev nD) : ∀ (n : ℕ) (h : n < cfg0.N) (p : Fin 512) (q : Fin 1024),
    (heldAfter m c n h).2 (ix2 p q)
      = Cert.Mlp.accUpTo (rowsIn m c) (w1In m c) (b1In m c) (w2In m c) (n % 8) (Nat.mod_lt _ (by decide)) (rowOf ⟨n, h⟩ p) q := by
  intro n
  induction n with
  | zero =>
    intro h p q
    exact acc_at_first m c ⟨0, h⟩ rfl p q
  | succ n ih =>
    intro h p q
    by_cases h0 : (n + 1) % 8 = 0
    · refine (acc_at_first m c ⟨n + 1, h⟩ h0 p q).trans ?_
      rw [accUpTo_congr h0 _ (by decide), Cert.Mlp.accUpTo_zero]
      refine congrArg (0 + ·) ?_
      exact congrArg (fun j => Cert.Mlp.blockSum (rowsIn m c) (w1In m c) (b1In m c) (w2In m c) j (rowOf ⟨n + 1, h⟩ p) q) (Fin.ext h0)
    · refine (acc_at_later m c ⟨n + 1, h⟩ h0 p q).trans ?_
      have e : (n + 1) % 8 = n % 8 + 1 := by omega
      have e8 : n % 8 + 1 < 8 := by omega
      rw [accUpTo_congr e _ e8, Cert.Mlp.accUpTo_succ]
      have hr : rowOf ⟨n + 1, h⟩ p = rowOf ⟨n, Nat.lt_of_succ_lt h⟩ p := Fin.ext (by simp only [rowOf]; omega)
      refine congrArg₂ (· + ·) ?_ ?_
      · rw [hr]; exact ih _ p q
      · exact congrArg (fun j => Cert.Mlp.blockSum (rowsIn m c) (w1In m c) (b1In m c) (w2In m c) j (rowOf ⟨n + 1, h⟩ p) q) (Fin.ext e)

/-- At the last hidden block the output's buffer ends at the blocked perceptron output of the point's rows. -/
theorem out_at_last (c : Dev nD) (t : Fin cfg0.N) (h1 : t.val % 8 = 7) (p : Fin 512) (q : Fin 1024) :
    (heldAfter m c t.val t.isLt).1 (ix2 p q)
      = Cert.Mlp.mlpOut (rowsIn m c) (w1In m c) (b1In m c) (w2In m c) (b2In m c) (rowOf t p) q := by
  have h0 : ¬t.val % 8 = 0 := by omega
  have e2 : (heldAfter m c t.val t.isLt).2 (ix2 p q)
      = k0_pay2 (F := Ideal) (blockAt m c 0 t) (blockAt m c 1 t) (blockAt m c 2 t) (heldAfter m c (t.val - 1) (Nat.lt_of_le_of_lt (Nat.sub_le _ _) t.isLt)).2 (blockAt m c 3 t) (ix2 p q) := by
    rw [heldAfter_last m c t h0 h1]
    dsimp only
    exact congrFun (acc_last (F := Ideal) c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) ((atLastK_iff t).mpr h1) (blockAt m c 0 t) (blockAt m c 1 t) (blockAt m c 2 t) (blockAt m c 3 t) (blockAt m c 4 t) (heldAfter m c (t.val - 1) (Nat.lt_of_le_of_lt (Nat.sub_le _ _) t.isLt)).2) (ix2 p q)
  rw [heldAfter_last m c t h0 h1]
  dsimp only
  refine (congrFun (out_last (F := Ideal) c (grid0.coords t) (buf0 t) (wh0 t) (buf1 t) (wh1 t) (buf2 t) (wh2 t) (buf3 t) (wh3 t) (buf4 t) (wh4 t) (buf5 t) (wh5 t) accM (Memref.isWhole_whole _) (fun h => h0 ((atFirstK_iff t).mp h)) ((atLastK_iff t).mpr h1) (blockAt m c 0 t) (blockAt m c 1 t) (blockAt m c 2 t) (blockAt m c 3 t) (blockAt m c 4 t) (heldAfter m c (t.val - 1) (Nat.lt_of_le_of_lt (Nat.sub_le _ _) t.isLt)).2) (ix2 p q)).trans ?_
  refine (last_apply _ _ p q).trans ?_
  unfold Cert.Mlp.mlpOut
  refine congrArg₂ (· + ·) ?_ (b2Block_apply m c t q)
  rw [← e2, acc_inv m c t.val t.isLt p q]
  exact accUpTo_congr h1 _ _ _ _

/-- The region's result array: entry `(r, l)` is the blocked perceptron output of row `r`. -/
def outArr (c : Dev nD) : S4096x1024.Idx → EReal :=
  fun i => Cert.Mlp.mlpOut (rowsIn m c) (w1In m c) (b1In m c) (w2In m c) (b2In m c) (i 0) (i 1)

theorem xsize5 : ∀ t : Fin cfg0.N, win0_5.xsize (grid0.coords t) (0 : Fin 2) = 512 ∧ win0_5.xsize (grid0.coords t) (1 : Fin 2) = 1024 :=
  (by decide +kernel : ∀ t : Fin grid0.N, win0_5.xsize (grid0.coords t) (0 : Fin 2) = 512 ∧ win0_5.xsize (grid0.coords t) (1 : Fin 2) = 1024)

/-- What a write-back writes is the result array's block there. -/
theorem flushed_eq (c : Dev nD) (t : Fin cfg0.N) (hf : (cfg0.win 5).flush t = true) :
    (pdata m 0 c).flushed 5 t = ((cfg0.win 5).blk t).view.read (Elt Ideal) (outArr m c) := by
  have h7 : t.val % 8 = 7 := (flush0_5 t).mp hf
  show (cfg0.win 5).cut (grid0.coords t) ((pdata m 0 c).after 5 t) = _
  rw [after5]
  funext y
  obtain ⟨p, q, rfl⟩ : ∃ (p : Fin 512) (q : Fin 1024), y = ix2 p q := ⟨y 0, y 1, eq_ix2 y⟩
  rw [View.read_apply]
  refine (out_at_last m c t h7 p q).trans ?_
  unfold outArr
  refine congrArg₂ (Cert.Mlp.mlpOut (rowsIn m c) (w1In m c) (b1In m c) (w2In m c) (b2In m c)) (Fin.ext ?_) (Fin.ext ?_)
  · show 512 * (t.val / 8) + p.val = win0_5.index t 0 * 512 + 1 * p.val
    rw [(idx5 t).1]; omega
  · show q.val = win0_5.index t 1 * 1024 + 1 * q.val
    rw [(idx5 t).2]; omega

/-- Every entry of the result array lies in the block some write-back writes: row `r` in row block `r / 512`,
    written back at its last hidden block. -/
theorem out_final (c : Dev nD) : (pdata m 0 c).arrAt 5 cfg0.N = outArr m c :=
  (pdata m 0 c).arrAt_eq_of_cover 5 (outArr m c) (flushed_eq m c) fun i => by
    have hi0 : (i 0 : Nat) < 4096 := (i 0).isLt
    have hi1 : (i 1 : Nat) < 1024 := (i 1).isLt
    have hN : cfg0.N = 64 := N_0
    have ht : 8 * ((i 0 : Nat) / 512) + 7 < cfg0.N := by omega
    refine ⟨⟨8 * ((i 0 : Nat) / 512) + 7, ht⟩, (flush0_5 _).mpr (by show (8 * ((i 0 : Nat) / 512) + 7) % 8 = 7; omega), ?_⟩
    show i ∈ ((View.whole main_v26).slice (win0_5.rect ⟨8 * ((i 0 : Nat) / 512) + 7, ht⟩)).set
    rw [View.set_slice_whole, Rect.mem_set_unit]
    intro a
    match a with
    | ⟨0, _⟩ =>
      show win0_5.index ⟨8 * ((i 0 : Nat) / 512) + 7, ht⟩ 0 * win0_5.size 0 ≤ (i 0 : Nat) ∧ (i 0 : Nat) < win0_5.index ⟨8 * ((i 0 : Nat) / 512) + 7, ht⟩ 0 * win0_5.size 0 + win0_5.xsize (grid0.coords ⟨8 * ((i 0 : Nat) / 512) + 7, ht⟩) 0
      rw [(idx5 _).1, (xsize5 _).1]
      show (8 * ((i 0 : Nat) / 512) + 7) / 8 * 512 ≤ (i 0 : Nat) ∧ (i 0 : Nat) < (8 * ((i 0 : Nat) / 512) + 7) / 8 * 512 + 512
      omega
    | ⟨1, _⟩ =>
      show win0_5.index ⟨8 * ((i 0 : Nat) / 512) + 7, ht⟩ 1 * win0_5.size 1 ≤ (i 1 : Nat) ∧ (i 1 : Nat) < win0_5.index ⟨8 * ((i 0 : Nat) / 512) + 7, ht⟩ 1 * win0_5.size 1 + win0_5.xsize (grid0.coords ⟨8 * ((i 0 : Nat) / 512) + 7, ht⟩) 1
      rw [(idx5 _).2, (xsize5 _).2]
      show 0 * 1024 ≤ (i 1 : Nat) ∧ (i 1 : Nat) < 0 * 1024 + 1024
      omega

end Run

end Cert.KernelIdeal.Val

end
-- ==== Proof.LibNary5.lean ====
/-
  A host operation over FIVE operands (a concatenation of five arrays), read at its own result: its function applied to
  the five operands' contents, each taken at its own array. Stated with the operands as a literal family of five, so that
  each operand's contents can be read further, one array at a time; the library states this for four operands.
-/
import Idealize.ShloMosaic.Lib.StableHlo.Run

noncomputable section

namespace Idealize.ShloMosaic.StableHlo

variable {τ : Topo} {sig : RefSig} {Val : EltTy → Type}

/-- The result of a five-operand host operation is its function at the operands' contents, listed operand by operand:
    `Fin.cons (F ↑x₀) (Fin.cons (F ↑x₁) …)` in place of `fun k => F ↑(![x₀, …, x₄] k)`. -/
theorem nary5_result {x0 x1 x2 x3 x4 y : Ref sig .tc}
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [nary_result]; congr 1; funext k; fin_cases k <;> rfl

/-- The same with the result reference shielded from indexing, the form a rewriting pass over a run's results uses. -/
theorem nary5_result' {x0 x1 x2 x3 x4 y : Ref sig .tc}
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) :=
  nary5_result f hxs hy F

end Idealize.ShloMosaic.StableHlo

end
-- ==== Proof.RefSide.lean ====
import proofs.«113232_j56367150792892_1_alg».proof.Defs
import proofs.«113232_j56367150792892_1_alg».proof.Proof.Gen.ReferenceIdeal.Run
import proofs.«113232_j56367150792892_1_alg».proof.Proof.Gen.ReferenceIdeal.Read
-- ==== Proof.KEntry.lean ====
/-
  What the region finds in its five input arrays, in terms of the program's arguments (at the ideal instance).
  The host lines before the region build the feature matrix — the scaled cosine and sine of the phases, the two
  weight tensors with their last two axes exchanged, the transposed steering matrix, joined along the feature axis and
  laid out as 4096 rows — and cast the weights; a change of float format is the identity on the extended reals, and the
  scale 1/32 is the reference's 1/sqrt(1024).
-/
import proofs.«113232_j56367150792892_1_alg».proof.Proof.KI.Runs
import proofs.«113232_j56367150792892_1_alg».proof.Proof.LibNary5
import proofs.«113232_j56367150792892_1_alg».proof.Proof.RefSide
import Idealize.ShloMosaic.Lib.StableHlo.Run
import Idealize.ShloMosaic.Lib.Pipeline.Value
import Idealize.ShloMosaic.PureOps.Ideal
import Mathlib.Analysis.Real.Sqrt

set_option maxRecDepth 16384

noncomputable section

namespace Cert.KernelIdeal.Entry

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ)

/-- The word `0x44800000` denotes the real 1024. -/
private theorem ofBits_1024 : Ideal.ofBits .f32 0x44800000#32 = ((1024 : ℝ) : EReal) := by
  simp [Ideal.ofBits, Ideal.ieee, -EReal.coe_mul]; norm_num
/-- The word `0x3F800000` denotes the real 1. -/
private theorem ofBits_one : Ideal.ofBits .f32 0x3F800000#32 = ((1 : ℝ) : EReal) := by
  simp [Ideal.ofBits, Ideal.ieee, -EReal.coe_mul]; norm_num
/-- The word `0x3D000000` denotes the real 1/32. -/
private theorem ofBits_inv32 : Ideal.ofBits .f32 0x3D000000#32 = ((1 / 32 : ℝ) : EReal) := by
  simp [Ideal.ofBits, Ideal.ieee, -EReal.coe_mul]; norm_num

/-- 1024 is the square of 32. -/
private theorem sqrt_1024 : Real.sqrt 1024 = 32 := by
  rw [show (1024 : ℝ) = 32 ^ 2 by norm_num]; exact Real.sqrt_sq (by norm_num)

/-- The scale both programs multiply the cosine and the sine by: the reference's `1 / sqrt 1024` is the kernel's literal `1/32`. -/
theorem inv_sqrt_1024 :
    (Host.divf (constant (F := Ideal) S_ .f32 0x3F800000#32) (Host.sqrt (constant (F := Ideal) S_ .f32 0x44800000#32)))
      = constant (F := Ideal) S_ .f32 0x3D000000#32 := by
  funext i
  show Ideal.div (Ideal.ofBits .f32 0x3F800000#32) (Ideal.sqrt (Ideal.ofBits .f32 0x44800000#32))
    = Ideal.ofBits .f32 0x3D000000#32
  rw [ofBits_1024, ofBits_one, ofBits_inv32, Ideal.sqrt_coe, if_neg (by norm_num), sqrt_1024,
    Ideal.div_coe (by norm_num), ← EReal.coe_mul, one_mul]

/-- The reference's scale is the kernel's literal. -/
private theorem ref_scale : Cert.ReferenceIdeal.Read.val_main_v1 (F := Ideal) = constant (F := Ideal) S_ .f32 0x3D000000#32 := by
  exact inv_sqrt_1024

/-- The contents after two stretches of lines run one after the other. -/
private theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The scaled cosine piece is the reference's. -/
private theorem entry_cos (c : Dev nD) :
    (atEntry (F := Ideal) m c main_v12 : S256x16x1024.Idx → EReal) = Cert.ReferenceIdeal.Read.val_main_v9 (F := Ideal) (m ((c : Thread nD τ).loc main_arg0)) := by
  dsimp only [atEntry, atEntry0]
  simp only [hostOps0, List.flatten_cons, List.flatten_nil, List.append_nil, List.cons_append, List.nil_append]
  after_results
  delta Cert.ReferenceIdeal.Read.val_main_v9 Cert.ReferenceIdeal.Read.val_main_v8 Cert.ReferenceIdeal.Read.val_main_v4 Cert.ReferenceIdeal.Read.val_main_v3 Cert.ReferenceIdeal.Read.val_main_v2
  rw [ref_scale]
  rfl

/-- The scaled sine piece is the reference's. -/
private theorem entry_sin (c : Dev nD) :
    (atEntry (F := Ideal) m c main_v14 : S256x16x1024.Idx → EReal) = Cert.ReferenceIdeal.Read.val_main_v11 (F := Ideal) (m ((c : Thread nD τ).loc main_arg0)) := by
  dsimp only [atEntry, atEntry0]
  simp only [hostOps0, List.flatten_cons, List.flatten_nil, List.append_nil, List.cons_append, List.nil_append]
  after_results
  delta Cert.ReferenceIdeal.Read.val_main_v11 Cert.ReferenceIdeal.Read.val_main_v10 Cert.ReferenceIdeal.Read.val_main_v7 Cert.ReferenceIdeal.Read.val_main_v6 Cert.ReferenceIdeal.Read.val_main_v5
  rw [ref_scale]
  rfl

/-- The first weight tensor with its last two axes exchanged is the reference's. -/
private theorem entry_t1 (c : Dev nD) :
    (atEntry (F := Ideal) m c main_v15 : S256x16x1024.Idx → EReal) = Cert.ReferenceIdeal.Read.val_main_v12 (F := Ideal) (m ((c : Thread nD τ).loc main_arg1)) := by
  dsimp only [atEntry, atEntry0]
  simp only [hostOps0, List.flatten_cons, List.flatten_nil, List.append_nil, List.cons_append, List.nil_append]
  after_results
  rfl

/-- The second weight tensor with its last two axes exchanged is the reference's. -/
private theorem entry_t2 (c : Dev nD) :
    (atEntry (F := Ideal) m c main_v16 : S256x16x1024.Idx → EReal) = Cert.ReferenceIdeal.Read.val_main_v13 (F := Ideal) (m ((c : Thread nD τ).loc main_arg2)) := by
  dsimp only [atEntry, atEntry0]
  simp only [hostOps0, List.flatten_cons, List.flatten_nil, List.append_nil, List.cons_append, List.nil_append]
  after_results
  rfl

/-- The transposed steering matrix, repeated over the samples, is the reference's. -/
private theorem entry_steer (c : Dev nD) :
    (atEntry (F := Ideal) m c main_v19 : S256x16x512.Idx → EReal) = Cert.ReferenceIdeal.Read.val_main_v16 (F := Ideal) (m ((c : Thread nD τ).loc main_arg3)) := by
  dsimp only [atEntry, atEntry0]
  simp only [hostOps0, List.flatten_cons, List.flatten_nil, List.append_nil, List.cons_append, List.nil_append]
  after_results
  rfl

/-- The last six host lines leave alone every array none of them writes. -/
private theorem tail_keep (W : Valuation τ sig (Elt Ideal)) {r : Ref sig .tc}
    (h : r ∉ [main_v20, main_v21, main_v22, main_v23, main_v24, main_v25]) :
    after (List.drop 22 (hostOps0 (F := Ideal))) W (Proc.devRef .tc r) = W (Proc.devRef .tc r) := by
  simp only [List.mem_cons, List.mem_nil_iff, or_false, not_or] at h
  obtain ⟨h0, h1, h2, h3, h4, h5⟩ := h
  simp only [hostOps0, List.drop_succ_cons, List.drop_zero, after_cons, after_nil]
  rw [reshape_result_ne (h := h5), reshape_result_ne (h := h4), unary_result_ne (h := h3), unary_result_ne (h := h2),
    reshape_result_ne (h := h1), nary_result_ne (h := h0)]

/-- The last six host lines, read at the feature matrix: the five pieces as the earlier lines left them, joined along
    the feature axis and laid out as 4096 rows. -/
private theorem tail_join (W : Valuation τ sig (Elt Ideal)) :
    (after (List.drop 22 (hostOps0 (F := Ideal))) W (Proc.devRef .tc main_v21) : S4096x4608.Idx → EReal)
      = shapeCast S4096x4608
          (concatenate (α := EReal) S256x16x4608 2
            [⟨S256x16x1024, (W (Proc.devRef .tc main_v12) : S256x16x1024.Idx → EReal)⟩,
             ⟨S256x16x1024, (W (Proc.devRef .tc main_v14) : S256x16x1024.Idx → EReal)⟩,
             ⟨S256x16x1024, (W (Proc.devRef .tc main_v15) : S256x16x1024.Idx → EReal)⟩,
             ⟨S256x16x1024, (W (Proc.devRef .tc main_v16) : S256x16x1024.Idx → EReal)⟩,
             ⟨S256x16x512, (W (Proc.devRef .tc main_v19) : S256x16x512.Idx → EReal)⟩]
            concatenates_S256x16x1024_S256x16x1024_S256x16x1024_S256x16x1024_S256x16x512_S256x16x4608_d2)
          shapeCasts_S256x16x4608_S4096x4608 := by
  simp only [hostOps0, List.drop_succ_cons, List.drop_zero, after_cons, after_nil]
  rw [reshape_result_ne (h := by decide), reshape_result_ne (h := by decide), unary_result_ne (h := by decide),
    unary_result_ne (h := by decide), reshape_result, nary5_result]
  rfl

/-- The feature matrix the region finds is the five pieces it finds, joined along the feature axis and laid out as
    4096 rows. -/
private theorem entry_join (c : Dev nD) :
    (atEntry (F := Ideal) m c main_v21 : S4096x4608.Idx → EReal)
      = shapeCast S4096x4608
          (concatenate (α := EReal) S256x16x4608 2
            [⟨S256x16x1024, (atEntry (F := Ideal) m c main_v12 : S256x16x1024.Idx → EReal)⟩,
             ⟨S256x16x1024, (atEntry (F := Ideal) m c main_v14 : S256x16x1024.Idx → EReal)⟩,
             ⟨S256x16x1024, (atEntry (F := Ideal) m c main_v15 : S256x16x1024.Idx → EReal)⟩,
             ⟨S256x16x1024, (atEntry (F := Ideal) m c main_v16 : S256x16x1024.Idx → EReal)⟩,
             ⟨S256x16x512, (atEntry (F := Ideal) m c main_v19 : S256x16x512.Idx → EReal)⟩]
            concatenates_S256x16x1024_S256x16x1024_S256x16x1024_S256x16x1024_S256x16x512_S256x16x4608_d2)
          shapeCasts_S256x16x4608_S4096x4608 := by
  have hs : atEntry0 (F := Ideal) m c
      = after (List.drop 22 (hostOps0 (F := Ideal))) (after (List.take 22 (hostOps0 (F := Ideal))) (fun b => m (c, b))) := by
    dsimp only [atEntry0]
    simp only [List.flatten_cons, List.flatten_nil, List.append_nil]
    rw [← after_append, List.take_append_drop]
  dsimp only [atEntry]
  rw [hs]
  generalize after (List.take 22 (hostOps0 (F := Ideal))) (fun b => m (c, b)) = W
  rw [tail_keep W (r := main_v12) (by decide), tail_keep W (r := main_v14) (by decide),
    tail_keep W (r := main_v15) (by decide), tail_keep W (r := main_v16) (by decide),
    tail_keep W (r := main_v19) (by decide), tail_join W]

/-- The feature matrix the region finds: the reference's joined array, laid out as 4096 rows. -/
theorem entry_rows (c : Dev nD) :
    (atEntry (F := Ideal) m c main_v21 : S4096x4608.Idx → EReal)
      = shapeCast S4096x4608 (Cert.ReferenceIdeal.Read.val_main_v17 (F := Ideal)
          (m ((c : Thread nD τ).loc main_arg0)) (m ((c : Thread nD τ).loc main_arg1)) (m ((c : Thread nD τ).loc main_arg2)) (m ((c : Thread nD τ).loc main_arg3)))
          shapeCasts_S256x16x4608_S4096x4608 := by
  rw [entry_join, entry_cos, entry_sin, entry_t1, entry_t2, entry_steer]
  rfl

/-- The first layer's weights as the region finds them: the argument itself. -/
theorem entry_w1 (c : Dev nD) :
    (atEntry (F := Ideal) m c main_v22 : S4608x4096.Idx → EReal) = m ((c : Thread nD τ).loc main_arg4) := by
  dsimp only [atEntry, atEntry0]
  simp only [hostOps0, List.flatten_cons, List.flatten_nil, List.append_nil, List.cons_append, List.nil_append]
  after_results
  rfl

/-- The second layer's weights as the region finds them: the argument itself. -/
theorem entry_w2 (c : Dev nD) :
    (atEntry (F := Ideal) m c main_v23 : S4096x1024.Idx → EReal) = m ((c : Thread nD τ).loc main_arg6) := by
  dsimp only [atEntry, atEntry0]
  simp only [hostOps0, List.flatten_cons, List.flatten_nil, List.append_nil, List.cons_append, List.nil_append]
  after_results
  rfl

/-- The first bias as the region finds it: the argument as one row. -/
theorem entry_b1 (c : Dev nD) :
    (atEntry (F := Ideal) m c main_v24 : S1x4096.Idx → EReal)
      = shapeCast S1x4096 (m ((c : Thread nD τ).loc main_arg5)) shapeCasts_S4096_S1x4096 := by
  dsimp only [atEntry, atEntry0]
  simp only [hostOps0, List.flatten_cons, List.flatten_nil, List.append_nil, List.cons_append, List.nil_append]
  after_results
  rfl

/-- The second bias as the region finds it: the argument as one row. -/
theorem entry_b2 (c : Dev nD) :
    (atEntry (F := Ideal) m c main_v25 : S1x1024.Idx → EReal)
      = shapeCast S1x1024 (m ((c : Thread nD τ).loc main_arg7)) shapeCasts_S1024_S1x1024 := by
  dsimp only [atEntry, atEntry0]
  simp only [hostOps0, List.flatten_cons, List.flatten_nil, List.append_nil, List.cons_append, List.nil_append]
  after_results
  rfl

end Cert.KernelIdeal.Entry

end
-- ==== Proof.KTail.lean ====
/-
  The program's result after the region: the four host lines after it lay the region's result array out as
  256 samples of 16 columns, sum over the columns from zero, and subtract the sum from the phases.
-/
import proofs.«113232_j56367150792892_1_alg».proof.Proof.KI.Frame
import Idealize.ShloMosaic.Lib.StableHlo.Run
import Idealize.ShloMosaic.Lib.Pipeline.Value

set_option maxRecDepth 16384

noncomputable section

namespace Cert.KernelIdeal.Tail

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The result buffer after the lines that follow the region, from the region's result array and the phases. -/
theorem result_eq (c : Dev nD) :
    Pipeline.afterTail₀ cfgs (pdata m) 0 (atEntry0 m) [hostOps1] c main_v29
      = subf (m ((c : Thread nD τ).loc main_arg0))
          (Host.reduceAdd (shapeCast S256x16x1024 ((pdata m 0 c).arrAt 5 cfg0.N) shapeCasts_S4096x1024_S256x16x1024)
            (constant S_ .f32 0x00000000#32) reducesTo_S256x16x1024_S256x1024_d1 h_S_) := by
  -- Window 5's array is the reshape's operand: after the region it holds what the pipeline leaves there.
  have h5 : Pipeline.withArrays spec0 c (atEntry0 m c) (fun w => (pdata m 0 c).arrAt w cfg0.N)
      (Proc.devRef .tc (Pipeline.arrRef spec0 5)) = (pdata m 0 c).arrAt 5 cfg0.N :=
    Pipeline.withArrays_arr spec0 launch0.win.arr_inj c _ _ 5
  have h5' : Pipeline.withArrays (cfgs 0).spec c (atEntry0 m c) (fun w => (pdata m 0 c).arrAt w (cfgs 0).N)
      (Proc.devRef .tc main_v26) = (pdata m 0 c).arrAt 5 cfg0.N := h5
  unfold Pipeline.afterTail₀
  show StableHlo.after hostOps1 _ (Proc.devRef .tc main_v29) = _
  after_results
  -- The phases are no window's array and no earlier line writes them: they are as launched.
  rw [Pipeline.withArrays_of_ne _ c (atEntry0 m c) _ main_arg0 (by exact (by decide : ∀ w, Pipeline.arrRef spec0 w ≠ main_arg0)),
    show atEntry0 m c (Proc.devRef .tc main_arg0) = m ((c : Thread nD τ).loc main_arg0) from atEntry_arg0 m c,
    h5']
  -- With the region's result array as an unknown, both sides are the same term.
  generalize (pdata m 0 c).arrAt 5 cfg0.N = A
  rfl

end Cert.KernelIdeal.Tail

end
-- ==== Proof.RefSpec.lean ====
/-
  The reference's perceptron output, one entry at a time, is the blocked specification: at sample `b`, column `m` and
  output unit `l` it is the whole sum over the 4096 hidden units plus the bias, of row `16 b + m` of the feature
  matrix laid out as 4096 rows.
-/
import proofs.«113232_j56367150792892_1_alg».proof.Proof.RefSide
import proofs.«113232_j56367150792892_1_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read
open Idealize.ShloMosaic Idealize.ShloMosaic.ValueIdx

open scoped BigOperators

/-- Row `16 b + m` of the 4096 rows, for sample `b` and column `m`. -/
theorem row_lt (b : Fin 256) (mm : Fin 16) : 16 * b.val + mm.val < 4096 := by omega

/-- The feature array laid out as 4096 rows, read at row `16 b + m` and feature `d`, is the array at `(b, m, d)`:
    both sit at row-major position `(16 b + m) · 4608 + d`. -/
theorem rows_apply (X : S256x16x4608.Idx → EReal) (hX : S256x16x4608.ShapeCasts Cert.Mlp.SRows)
    (b : Fin 256) (mm : Fin 16) (d : Fin 4608) :
    shapeCast Cert.Mlp.SRows X hX (ix2 ⟨16 * b.val + mm.val, row_lt b mm⟩ d) = X (ix3 b mm d) :=
  shapeCast_apply X hX _ _ (by
    rw [Shape.rowMajor_val_three, Shape.rowMajor_val_two]
    show (b.val * 16 + mm.val) * 4608 + d.val = (16 * b.val + mm.val) * 4608 + d.val
    omega)

/-- The first bias laid out as one row, read at column `k`, is the bias at `k`. -/
theorem bias1_apply (x5 : S4096.Idx → EReal) (hB1 : S4096.ShapeCasts Cert.Mlp.SB1) (k : Fin 4096) :
    shapeCast Cert.Mlp.SB1 x5 hB1 (ix2 0 k) = x5 (ix1 k) :=
  shapeCast_apply x5 hB1 _ _ (by
    rw [Shape.rowMajor_val_one, Shape.rowMajor_val_two]
    show k.val = 0 * 4096 + k.val
    omega)

/-- The second bias laid out as one row, read at column `l`, is the bias at `l`. -/
theorem bias2_apply (x7 : S1024.Idx → EReal) (hB2 : S1024.ShapeCasts Cert.Mlp.SB2) (l : Fin 1024) :
    shapeCast Cert.Mlp.SB2 x7 hB2 (ix2 0 l) = x7 (ix1 l) :=
  shapeCast_apply x7 hB2 _ _ (by
    rw [Shape.rowMajor_val_one, Shape.rowMajor_val_two]
    show l.val = 0 * 1024 + l.val
    omega)

/-- The reference's rectified first layer at `(b, m, k)` is hidden unit `k` of row `16 b + m`. -/
theorem ref_hidden (x0 : S256x1024.Idx → EReal) (x1 x2 : S256x1024x16.Idx → EReal) (x3 : S512x16.Idx → EReal)
    (x4 : S4608x4096.Idx → EReal) (x5 : S4096.Idx → EReal)
    (hX : S256x16x4608.ShapeCasts Cert.Mlp.SRows) (hB1 : S4096.ShapeCasts Cert.Mlp.SB1)
    (b : Fin 256) (mm : Fin 16) (k : Fin 4096) :
    val_main_v22 (F := Ideal) x0 x1 x2 x3 x4 x5 (ix3 b mm k)
      = Cert.Mlp.hidden (shapeCast Cert.Mlp.SRows (val_main_v17 (F := Ideal) x0 x1 x2 x3) hX) x4
          (shapeCast Cert.Mlp.SB1 x5 hB1) ⟨16 * b.val + mm.val, row_lt b mm⟩ k := by
  unfold Cert.Mlp.hidden
  rw [val_main_v22_apply, val_main_v21_apply, val_main_v18_apply, val_main_v20_apply, val_main_v19_apply,
    val_main_call0_v0_apply, val_main_call0_cst_apply, Ideal.maximumf_def, Ideal.addf_def, Ideal.ofBits_def,
    Ideal.ofBits_zero_f32, bias1_apply]
  have hb : idx_main_v19 (idx_main_v20 (ix3 b mm k)) = ix1 k :=
    funext fun a => Fin.ext (by match a with | ⟨0, _⟩ => rfl)
  rw [hb]
  refine congrArg (fun s => max (s + x5 (ix1 k)) 0) (Finset.sum_congr rfl fun d _ => ?_)
  have hl : lidx_main_v18 (ix3 b mm k) d = ix3 b mm d :=
    funext fun a => Fin.ext (by match a with | ⟨0, _⟩ => rfl | ⟨1, _⟩ => rfl | ⟨2, _⟩ => rfl)
  have hr : ridx_main_v18 (ix3 b mm k) d = ix2 d k :=
    funext fun a => Fin.ext (by match a with | ⟨0, _⟩ => rfl | ⟨1, _⟩ => rfl)
  rw [hl, hr, rows_apply]

/-- The reference's second-layer output at `(b, m, l)` is the blocked specification at row `16 b + m`, over the joined
    feature array laid out as rows and the two biases laid out as one row each. -/
theorem ref_out (x0 : S256x1024.Idx → EReal) (x1 x2 : S256x1024x16.Idx → EReal) (x3 : S512x16.Idx → EReal)
    (x4 : S4608x4096.Idx → EReal) (x5 : S4096.Idx → EReal) (x6 : S4096x1024.Idx → EReal) (x7 : S1024.Idx → EReal)
    (hX : S256x16x4608.ShapeCasts Cert.Mlp.SRows) (hB1 : S4096.ShapeCasts Cert.Mlp.SB1) (hB2 : S1024.ShapeCasts Cert.Mlp.SB2)
    (b : Fin 256) (mm : Fin 16) (l : Fin 1024) :
    val_main_v26 (F := Ideal) x0 x1 x2 x3 x4 x5 x6 x7 (ix3 b mm l)
      = Cert.Mlp.mlpOut (shapeCast Cert.Mlp.SRows (val_main_v17 (F := Ideal) x0 x1 x2 x3) hX) x4
          (shapeCast Cert.Mlp.SB1 x5 hB1) x6 (shapeCast Cert.Mlp.SB2 x7 hB2) ⟨16 * b.val + mm.val, row_lt b mm⟩ l := by
  rw [Cert.Mlp.mlpOut_eq, val_main_v26_apply, val_main_v23_apply, val_main_v25_apply, val_main_v24_apply,
    Ideal.addf_def, bias2_apply]
  have hb : idx_main_v24 (idx_main_v25 (ix3 b mm l)) = ix1 l :=
    funext fun a => Fin.ext (by match a with | ⟨0, _⟩ => rfl)
  rw [hb]
  refine congrArg (· + x7 (ix1 l)) (Finset.sum_congr rfl fun k _ => ?_)
  have hl : lidx_main_v23 (ix3 b mm l) k = ix3 b mm k :=
    funext fun a => Fin.ext (by match a with | ⟨0, _⟩ => rfl | ⟨1, _⟩ => rfl | ⟨2, _⟩ => rfl)
  have hr : ridx_main_v23 (ix3 b mm l) k = ix2 k l :=
    funext fun a => Fin.ext (by match a with | ⟨0, _⟩ => rfl | ⟨1, _⟩ => rfl)
  rw [hl, hr, ref_hidden x0 x1 x2 x3 x4 x5 hX hB1 b mm k]

end Cert.ReferenceIdeal.RefSpec

end
-- ==== Proof.Bridge.lean ====
/-
  The two programs' results are one function of the arguments. The kernel's program leaves, in its result buffer, the
  phases minus the sum over the sixteen columns of the region's result array laid out per sample; that array is the
  blocked perceptron output of the feature rows the region finds, which are the reference's joined feature array, so
  entry by entry it is the reference's second-layer output; the last two host lines are the same in both programs.
-/
import proofs.«113232_j56367150792892_1_alg».proof.Proof.KValue
import proofs.«113232_j56367150792892_1_alg».proof.Proof.KEntry
import proofs.«113232_j56367150792892_1_alg».proof.Proof.KTail
import proofs.«113232_j56367150792892_1_alg».proof.Proof.RefSpec

set_option maxRecDepth 16384

noncomputable section

namespace Cert.KernelIdeal.Bridge

open Cert.KernelIdeal Cert.KernelIdeal.Gen Cert.KernelIdeal.Fr Cert.KernelIdeal.Val
open Idealize.ShloMosaic Idealize.ShloMosaic.TcCoe Idealize.SL.Sem Idealize.ShloMosaic.ValueIdx

variable (m : (ℓ : Loc nD τ sig) → Buf (Elt Ideal) ℓ) (ρ : Dev nD → PrngReg)

/-- The kernel program's result: the phases minus the column sums of the region's result array. -/
def result (c : Dev nD) : FVec Ideal S256x1024 .f32 :=
  subf (m ((c : Thread nD τ).loc main_arg0))
    (Host.reduceAdd (shapeCast S256x16x1024 (outArr m c) shapeCasts_S4096x1024_S256x16x1024)
      (constant S_ .f32 0x00000000#32) reducesTo_S256x16x1024_S256x1024_d1 h_S_)

/-- The kernel program's run, read: its result buffer at `result`, its arguments unchanged. -/
theorem value_run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v29 (Pipeline.mem_restRefs_of main_v29 (by decide) (by decide))).trans
      ((Cert.KernelIdeal.Tail.result_eq m c).trans (by rw [out_final m c]; rfl)),
      ((h c).2 main_arg0 (Pipeline.mem_restRefs_of main_arg0 (by decide) (by decide))).trans (atExit_arg0 m (pdata m) c),
      ((h c).2 main_arg1 (Pipeline.mem_restRefs_of main_arg1 (by decide) (by decide))).trans (atExit_arg1 m (pdata m) c),
      ((h c).2 main_arg2 (Pipeline.mem_restRefs_of main_arg2 (by decide) (by decide))).trans (atExit_arg2 m (pdata m) c),
      ((h c).2 main_arg3 (Pipeline.mem_restRefs_of main_arg3 (by decide) (by decide))).trans (atExit_arg3 m (pdata m) c),
      ((h c).2 main_arg4 (Pipeline.mem_restRefs_of main_arg4 (by decide) (by decide))).trans (atExit_arg4 m (pdata m) c),
      ((h c).2 main_arg5 (Pipeline.mem_restRefs_of main_arg5 (by decide) (by decide))).trans (atExit_arg5 m (pdata m) c),
      ((h c).2 main_arg6 (Pipeline.mem_restRefs_of main_arg6 (by decide) (by decide))).trans (atExit_arg6 m (pdata m) c),
      ((h c).2 main_arg7 (Pipeline.mem_restRefs_of main_arg7 (by decide) (by decide))).trans (atExit_arg7 m (pdata m) c)⟩)
    (run_main (F := Ideal) m ρ)

/-- The region's result array laid out per sample and column is, entry by entry, the reference's second-layer
    output of the same arguments. -/
theorem out_eq_ref (c : Dev nD) :
    shapeCast S256x16x1024 (outArr m c) shapeCasts_S4096x1024_S256x16x1024
      = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨b, mm, l, rfl⟩ : ∃ (b : Fin 256) (mm : Fin 16) (l : Fin 1024), i = ix3 b mm l := ⟨i 0, i 1, i 2, eq_ix3 i⟩
  rw [Cert.ReferenceIdeal.RefSpec.ref_out _ _ _ _ _ _ _ _ shapeCasts_S256x16x4608_S4096x4608 shapeCasts_S4096_S1x4096 shapeCasts_S1024_S1x1024 b mm l]
  have hcast : shapeCast S256x16x1024 (outArr m c) shapeCasts_S4096x1024_S256x16x1024 (ix3 b mm l)
      = outArr m c (ix2 ⟨16 * b.val + mm.val, Cert.ReferenceIdeal.RefSpec.row_lt b mm⟩ l) :=
    shapeCast_apply (outArr m c) shapeCasts_S4096x1024_S256x16x1024 _ _ (by
      rw [Shape.rowMajor_val_three, Shape.rowMajor_val_two]
      show (16 * b.val + mm.val) * 1024 + l.val = (b.val * 16 + mm.val) * 1024 + l.val
      omega)
  rw [hcast]
  unfold outArr
  show Cert.Mlp.mlpOut (rowsIn m c) (w1In m c) (b1In m c) (w2In m c) (b2In m c) ⟨16 * b.val + mm.val, _⟩ l = _
  unfold rowsIn w1In b1In w2In b2In
  rw [Cert.KernelIdeal.Entry.entry_rows m c, Cert.KernelIdeal.Entry.entry_w1 m c, Cert.KernelIdeal.Entry.entry_b1 m c,
    Cert.KernelIdeal.Entry.entry_w2 m c, Cert.KernelIdeal.Entry.entry_b2 m c]

/-- So the kernel program's result is the reference's result of the same arguments. -/
theorem result_eq_ref (c : Dev nD) :
    result m c = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold result Cert.ReferenceIdeal.Read.val_main_v28 Cert.ReferenceIdeal.Read.val_main_v27 Cert.ReferenceIdeal.Read.val_main_cst_1
  rw [out_eq_ref m c]

end Cert.KernelIdeal.Bridge

end
-- ==== Proof.lean ====
/-
  The certificate of a fused two-layer perceptron kernel against its plain reference, over the extended reals.

  Both programs build, for each of 256 samples and 16 antenna columns, a feature vector of 4608 entries — the cosine and
  the sine of 1024 phases scaled by 1/sqrt(1024) = 1/32, a column of each of two weight tensors, and a column of a
  steering matrix — and apply a perceptron with 4096 rectified hidden units and 1024 outputs; they sum the outputs over
  the sixteen columns and subtract the sum from the phases.

  The reference applies the two layers as two whole matrix products. The kernel lays the feature vectors out as 4096
  rows, and on an 8 × 8 grid handles 512 rows and 512 hidden units at a time: it resets an accumulator at the first
  hidden block, adds each hidden block's contribution to the second layer, and at the last hidden block stores the
  accumulator plus the second bias. Over the extended reals a change of float format is the identity, a matrix product
  into a zero accumulator is a plain sum, and addition is commutative and associative with 0 neutral, so the sum over
  4096 hidden units taken as eight sums of 512 added one by one to 0 is the whole sum: the two results agree entry by
  entry. Nothing distributes over a sum, so the inputs' finiteness is never used.

  The three programs terminate without fault and leave their arguments unchanged: for the two kernel programs by the
  pipeline's frame run over an invariant that carries the accumulator from point to point; for the reference by its
  run as a straight line of host operations. The idealization rewrote nothing, so it preserves the kernel trivially.
-/
import proofs.«113232_j56367150792892_1_alg».proof.Defs
import proofs.«113232_j56367150792892_1_alg».proof.Proof.Gen.Kernel
import proofs.«113232_j56367150792892_1_alg».proof.Proof.Gen.KernelIdeal
import proofs.«113232_j56367150792892_1_alg».proof.Proof.Gen.ReferenceIdeal
import proofs.«113232_j56367150792892_1_alg».proof.Proof.Gen.Pre_finite_inputs
import proofs.«113232_j56367150792892_1_alg».proof.Proof.K.Frame
import proofs.«113232_j56367150792892_1_alg».proof.Proof.KI.Frame
import proofs.«113232_j56367150792892_1_alg».proof.Proof.Bridge
import Idealize.ShloMosaic.Adequacy
import Idealize.ShloMosaic.Init

noncomputable section

namespace Cert.Proof

open Idealize.ShloMosaic Idealize.SL.Sem

/-- The kernel as printed runs to its end and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs run, and end with the same result. -/
theorem algebraic : Cert.algebraic_KernelIdeal_ReferenceIdeal := by
  intro m ρ m' ρ' _ hagree
  refine ⟨fun c => Cert.KernelIdeal.Bridge.result m c, Cert.KernelIdeal.Bridge.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.Bridge.result_eq_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
